-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x91 : Shape := ⟨3, ![16, 1000, 91]⟩
abbrev S16x1000x4 : Shape := ⟨3, ![16, 1000, 4]⟩
abbrev S16x128 : Shape := ⟨2, ![16, 128]⟩
abbrev S16x128x4 : Shape := ⟨3, ![16, 128, 4]⟩
abbrev S_ : Shape := ⟨0, ![]⟩

class Facts : Prop where
  bcast_S_S16x1000x91 : S_.BroadcastsInDim S16x1000x91 (![] : Fin 0 → Fin S16x1000x91.rank)
  reducesTo_S16x1000x91_S_d0_1_2 : S16x1000x91.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S16x128x4 : S_.BroadcastsInDim S16x128x4 (![] : Fin 0 → Fin S16x128x4.rank)
  reducesTo_S16x128x4_S_d0_1_2 : S16x128x4.ReducesTo [0, 1, 2] S_
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_v13 : IVec S_ 1) (main_v15 : IVec S16x128 1) (main_c_5 : IVec S_ 1) : IVec S_ 1 :=
  let main_v16 : IVec S_ 1 := (fun x v => Host.reduce IntOp.andi x v reducesTo_S16x128_S_d0_1 h_S_) main_v15 main_c_5
  let main_v17 : IVec S_ 1 := andi main_v13 main_v16
  main_v17

def fn {F : FTy → Type} [FloatOps F] (main_arg0 : FVec F S16x1000x91 .f32) (main_arg1 : FVec F S16x1000x4 .f32) (main_arg2 : IVec S16x128 32) (main_arg3 : FVec F S16x128x4 .f32) : IVec S_ 1 :=
  let main_v0 : FVec F S16x1000x91 .f32 := Host.absf main_arg0
  let main_cst : FVec F S_ .f32 := constant S_ .f32 0x7F800000#32
  let main_v1 : FVec F S16x1000x91 .f32 := broadcastInDim S16x1000x91 ![] bcast_S_S16x1000x91 main_cst
  let main_v2 : IVec S16x1000x91 1 := cmpf .olt main_v0 main_v1
  let main_c : IVec S_ 1 := constantI S_ 1 1#1
  let main_v3 : IVec S_ 1 := (fun x v => Host.reduce IntOp.andi x v reducesTo_S16x1000x91_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S16x128x4 .f32 := Host.absf main_arg3
  let main_cst_2 : FVec F S_ .f32 := constant S_ .f32 0x7F800000#32
  let main_v10 : FVec F S16x128x4 .f32 := broadcastInDim S16x128x4 ![] bcast_S_S16x128x4 main_cst_2
  let main_v11 : IVec S16x128x4 1 := cmpf .olt main_v9 main_v10
  let main_c_3 : IVec S_ 1 := constantI S_ 1 1#1
  let main_v12 : IVec S_ 1 := (fun x v => Host.reduce IntOp.andi x v reducesTo_S16x128x4_S_d0_1_2 h_S_) main_v11 main_c_3
  let main_v13 : IVec S_ 1 := andi main_v8 main_v12
  let main_c_4 : IVec S_ 32 := constantI S_ 32 0#32
  let main_v14 : IVec S16x128 32 := broadcastInDim S16x128 ![] bcast_S_S16x128 main_c_4
  let main_v15 : IVec S16x128 1 := cmpi .sge main_arg2 main_v14
  let main_c_5 : IVec S_ 1 := constantI S_ 1 1#1
  fn_part1 (F := F) main_v13 main_v15 main_c_5
-- ==== Kernel.lean ====
abbrev S16x1000x91 : Shape := ⟨3, ![16, 1000, 91]⟩
abbrev S16x1000x4 : Shape := ⟨3, ![16, 1000, 4]⟩
abbrev S16x128 : Shape := ⟨2, ![16, 128]⟩
abbrev S16x128x4 : Shape := ⟨3, ![16, 128, 4]⟩
abbrev S_ : Shape := ⟨0, ![]⟩
abbrev S16x1x128 : Shape := ⟨3, ![16, 1, 128]⟩
abbrev S16x4x1000 : Shape := ⟨3, ![16, 4, 1000]⟩
abbrev S16x4x128 : Shape := ⟨3, ![16, 4, 128]⟩
abbrev S16x1000x128 : Shape := ⟨3, ![16, 1000, 128]⟩
abbrev S2x1000x91 : Shape := ⟨3, ![2, 1000, 91]⟩
abbrev S2x4x1000 : Shape := ⟨3, ![2, 4, 1000]⟩
abbrev S2x1x128 : Shape := ⟨3, ![2, 1, 128]⟩
abbrev S2x4x128 : Shape := ⟨3, ![2, 4, 128]⟩
abbrev S2x1000x128 : Shape := ⟨3, ![2, 1000, 128]⟩
abbrev S2x91x128 : Shape := ⟨3, ![2, 91, 128]⟩
abbrev S2x1000x4 : Shape := ⟨3, ![2, 1000, 4]⟩
abbrev S2x1000x1 : Shape := ⟨3, ![2, 1000, 1]⟩

abbrev nBuf : Space → Nat
  | .hbm => 16
  | .vmem => 10
  | .smem => 0
  | _ => 0

abbrev bufTy : (tb : Table) → Fin (tcTables nBuf tb) → BufTy
  | .hbm, ⟨0, _⟩ => ⟨S16x1000x91, .f32⟩
  | .hbm, ⟨1, _⟩ => ⟨S16x1000x4, .f32⟩
  | .hbm, ⟨2, _⟩ => ⟨S16x128, .i32⟩
  | .hbm, ⟨3, _⟩ => ⟨S16x128x4, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16x128, .i32⟩
  | .hbm, ⟨8, _⟩ => ⟨S16x128, .i32⟩
  | .hbm, ⟨9, _⟩ => ⟨S_, .i32⟩
  | .hbm, ⟨10, _⟩ => ⟨S16x128, .i32⟩
  | .hbm, ⟨11, _⟩ => ⟨S16x128, .i32⟩
  | .hbm, ⟨12, _⟩ => ⟨S16x1x128, .i32⟩
  | .hbm, ⟨13, _⟩ => ⟨S16x4x1000, .f32⟩
  | .hbm, ⟨14, _⟩ => ⟨S16x4x128, .f32⟩
  | .hbm, ⟨15, _⟩ => ⟨S16x1000x128, .f32⟩
  | .local _ .vmem, ⟨0, _⟩ => ⟨S2x1000x91, .f32⟩
  | .local _ .vmem, ⟨1, _⟩ => ⟨S2x1000x91, .f32⟩
  | .local _ .vmem, ⟨2, _⟩ => ⟨S2x4x1000, .f32⟩
  | .local _ .vmem, ⟨3, _⟩ => ⟨S2x4x1000, .f32⟩
  | .local _ .vmem, ⟨4, _⟩ => ⟨S2x1x128, .i32⟩
  | .local _ .vmem, ⟨5, _⟩ => ⟨S2x1x128, .i32⟩
  | .local _ .vmem, ⟨6, _⟩ => ⟨S2x4x128, .f32⟩
  | .local _ .vmem, ⟨7, _⟩ => ⟨S2x4x128, .f32⟩
  | .local _ .vmem, ⟨8, _⟩ => ⟨S2x1000x128, .f32⟩
  | .local _ .vmem, ⟨9, _⟩ => ⟨S2x1000x128, .f32⟩
  | _, _ => ⟨S16x1000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1000x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16x128 : S_.BroadcastsInDim S16x128 (![] : Fin 0 → Fin S16x128.rank)
  shapeCasts_S16x128_S16x1x128 : S16x128.ShapeCasts S16x1x128
  transposes_S16x1000x4_S16x4x1000_0_2_1 : S16x1000x4.Transposes [0, 2, 1] S16x4x1000
  transposes_S16x128x4_S16x4x128_0_2_1 : S16x128x4.Transposes [0, 2, 1] S16x4x128
  inb_S2x1000x91_S2x1000x91_0_0_0 : ∀ a, (![0, 0, 0] : Fin 3 → Nat) a + S2x1000x91.size a ≤ S2x1000x91.size a
  h_S2x1000x91 : 0 < S2x1000x91.numel
  iota_S2x91x128_d1_w32 : S2x91x128.Iotas .tc 32 [1]
  inb_S2x1x128_S2x1x128_0_0_0 : ∀ a, (![0, 0, 0] : Fin 3 → Nat) a + S2x1x128.size a ≤ S2x1x128.size a
  h_S2x1x128 : 0 < S2x1x128.numel
  shapeCasts_S2x1x128_S2x1x128 : S2x1x128.ShapeCasts S2x1x128
  broadcasts_S2x1x128_S2x91x128 : S2x1x128.Broadcasts S2x91x128
  natLt_1_32 : 1 < 32
  inb_S2x4x1000_S2x4x1000_0_0_0 : ∀ a, (![0, 0, 0] : Fin 3 → Nat) a + S2x4x1000.size a ≤ S2x4x1000.size a
  h_S2x4x1000 : 0 < S2x4x1000.numel
  shapeCasts_S2x4x1000_S2x4x1000 : S2x4x1000.ShapeCasts S2x4x1000
  transposes_S2x4x1000_p0_2_1_S2x1000x4 : S2x4x1000.Transposes [0, 2, 1] S2x1000x4
  inb_S2x4x128_S2x4x128_0_0_0 : ∀ a, (![0, 0, 0] : Fin 3 → Nat) a + S2x4x128.size a ≤ S2x4x128.size a
  h_S2x4x128 : 0 < S2x4x128.numel
  shapeCasts_S2x4x128_S2x4x128 : S2x4x128.ShapeCasts S2x4x128
  slices_S2x1000x4_o0_0_0_S2x1000x1 : S2x1000x4.Slices ![0, 0, 0] S2x1000x1
  slices_S2x4x128_o0_0_0_S2x1x128 : S2x4x128.Slices ![0, 0, 0] S2x1x128
  broadcasts_S2x1000x1_S2x1000x128 : S2x1000x1.Broadcasts S2x1000x128
  broadcasts_S2x1x128_S2x1000x128 : S2x1x128.Broadcasts S2x1000x128
  slices_S2x1000x4_o0_0_1_S2x1000x1 : S2x1000x4.Slices ![0, 0, 1] S2x1000x1
  slices_S2x4x128_o0_1_0_S2x1x128 : S2x4x128.Slices ![0, 1, 0] S2x1x128
  slices_S2x1000x4_o0_0_2_S2x1000x1 : S2x1000x4.Slices ![0, 0, 2] S2x1000x1
  slices_S2x4x128_o0_2_0_S2x1x128 : S2x4x128.Slices ![0, 2, 0] S2x1x128
  slices_S2x1000x4_o0_0_3_S2x1000x1 : S2x1000x4.Slices ![0, 0, 3] S2x1000x1
  slices_S2x4x128_o0_3_0_S2x1x128 : S2x4x128.Slices ![0, 3, 0] S2x1x128
  inb_S2x1000x128_S2x1000x128_0_0_0 : ∀ a, (![0, 0, 0] : Fin 3 → Nat) a + S2x1000x128.size a ≤ S2x1000x128.size a
  h_S2x1000x128 : 0 < S2x1000x128.numel
  dot_S2x1000x91_S2x91x128_S2x1000x128_2_1_1_2_0_0_wf : DotDims.WF S2x1000x91 S2x91x128 S2x1000x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1000x91.size a ≤ S16x1000x91.size a
  hwx0_0 : ∀ i : grid0.Coords, EltTy.bits .f32 = 32 ∨ (Rect.block (s := S16x1000x91) S2x1000x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4x1000.size a ≤ S16x4x1000.size a
  hwx0_1 : ∀ i : grid0.Coords, EltTy.bits .f32 = 32 ∨ (Rect.block (s := S16x4x1000) S2x4x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x128.size a ≤ S16x1x128.size a
  hwx0_2 : ∀ i : grid0.Coords, EltTy.bits .i32 = 32 ∨ (Rect.block (s := S16x1x128) S2x1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x4x128.size a ≤ S16x4x128.size a
  hwx0_3 : ∀ i : grid0.Coords, EltTy.bits .f32 = 32 ∨ (Rect.block (s := S16x4x128) S2x4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1000x128.size a ≤ S16x1000x128.size a
  hwx0_4 : ∀ i : grid0.Coords, EltTy.bits .f32 = 32 ∨ (Rect.block (s := S16x1000x128) S2x1000x128.size (cc0_transform_4 i) (hinb0_4 i)).WholeWords (EltTy.packing .f32)

variable [Facts₀]

def dot_S2x1000x91_S2x91x128_S2x1000x128_2_1_1_2_0_0 : DotDims S2x1000x91 S2x91x128 S2x1000x128 where
  lhsContracting := [2]
  rhsContracting := [1]
  lhsNonContracting := [1]
  rhsNonContracting := [2]
  lhsBatch := [0]
  rhsBatch := [0]
  wf := dot_S2x1000x91_S2x91x128_S2x1000x128_2_1_1_2_0_0_wf

abbrev win0_0 : Pipeline.Window sig grid0 :=
  Pipeline.Window.ofSpec (Memref.whole main_arg0) S2x1000x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x4x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x4x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2x1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1000x91 : Shape := ⟨3, ![16, 1000, 91]⟩
abbrev S16x1000x4 : Shape := ⟨3, ![16, 1000, 4]⟩
abbrev S16x128 : Shape := ⟨2, ![16, 128]⟩
abbrev S16x128x4 : Shape := ⟨3, ![16, 128, 4]⟩
abbrev S16000x91 : Shape := ⟨2, ![16000, 91]⟩
abbrev S_ : Shape := ⟨0, ![]⟩
abbrev S16000x4 : Shape := ⟨2, ![16000, 4]⟩
abbrev S2048 : Shape := ⟨1, ![2048]⟩
abbrev S2048x4 : Shape := ⟨2, ![2048, 4]⟩
abbrev S2048x1 : Shape := ⟨2, ![2048, 1]⟩
abbrev S16000x2048 : Shape := ⟨2, ![16000, 2048]⟩
abbrev S16000x1x4 : Shape := ⟨3, ![16000, 1, 4]⟩
abbrev S1x2048x4 : Shape := ⟨3, ![1, 2048, 4]⟩
abbrev S16000x2048x4 : Shape := ⟨3, ![16000, 2048, 4]⟩
abbrev S16000x1 : Shape := ⟨2, ![16000, 1]⟩
abbrev S16000 : Shape := ⟨1, ![16000]⟩
abbrev S16000x2 : Shape := ⟨2, ![16000, 2]⟩
abbrev S16000x1x2 : Shape := ⟨3, ![16000, 1, 2]⟩
abbrev S2048x2 : Shape := ⟨2, ![2048, 2]⟩
abbrev S1x2048x2 : Shape := ⟨3, ![1, 2048, 2]⟩
abbrev S16000x2048x2 : Shape := ⟨3, ![16000, 2048, 2]⟩
abbrev S16000x2048x1 : Shape := ⟨3, ![16000, 2048, 1]⟩
abbrev S1x2048 : Shape := ⟨2, ![1, 2048]⟩
abbrev S16x1000x16x128 : Shape := ⟨4, ![16, 1000, 16, 128]⟩
abbrev S1000x128x16x16 : Shape := ⟨4, ![1000, 128, 16, 16]⟩
abbrev S16 : Shape := ⟨1, ![16]⟩
abbrev S16x1 : Shape := ⟨2, ![16, 1]⟩
abbrev S16x2 : Shape := ⟨2, ![16, 2]⟩
abbrev S1000x128x16 : Shape := ⟨3, ![1000, 128, 16]⟩
abbrev S16x1000x128 : Shape := ⟨3, ![16, 1000, 128]⟩

abbrev nBuf : Space → Nat
  | .hbm => 221
  | .vmem => 0
  | .smem => 0
  | _ => 0

abbrev hbmTy0_0 (i : Nat) : BufTy := match i % 128 with
  | 0 => ⟨S16x1000x91, .f32⟩
  | 1 => ⟨S16x1000x4, .f32⟩
  | 2 => ⟨S16x128, .i32⟩
  | 3 => ⟨S16x128x4, .f32⟩
  | 4 => ⟨S16000x91, .f32⟩
  | 5 => ⟨S16000x91, .f32⟩
  | 6 => ⟨S16000x91, .f32⟩
  | 7 => ⟨S_, .f32⟩
  | 8 => ⟨S16000x91, .f32⟩
  | 9 => ⟨S16000x91, .f32⟩
  | 10 => ⟨S_, .f32⟩
  | 11 => ⟨S16000x91, .f32⟩
  | 12 => ⟨S16000x91, .f32⟩
  | 13 => ⟨S16000x4, .f32⟩
  | 14 => ⟨S2048, .i32⟩
  | 15 => ⟨S2048x4, .f32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S2048x1, .i32⟩
  | 24 => ⟨S16000x2048, .f32⟩
  | 25 => ⟨S_, .f32⟩
  | 26 => ⟨S16000x2048, .f32⟩
  | 27 => ⟨S16000x2048, .f32⟩
  | 28 => ⟨S_, .f32⟩
  | 29 => ⟨S16000x2048, .f32⟩
  | 30 => ⟨S16000x2048, .f32⟩
  | 31 => ⟨S_, .f32⟩
  | 32 => ⟨S16000x2048, .f32⟩
  | 33 => ⟨S16000x2048, .f32⟩
  | 34 => ⟨S_, .f32⟩
  | 35 => ⟨S16000x2048, .f32⟩
  | 36 => ⟨S16000x2048, .f32⟩
  | 37 => ⟨S16000x2048, .f32⟩
  | 38 => ⟨S16000x2048, .f32⟩
  | 39 => ⟨S16000x2048, .f32⟩
  | 40 => ⟨S_, .f32⟩
  | 41 => ⟨S16000x2048, .f32⟩
  | 42 => ⟨S16000x2048, .f32⟩
  | 43 => ⟨S_, .f32⟩
  | 44 => ⟨S16000x2048, .f32⟩
  | 45 => ⟨S16000x2048, .f32⟩
  | 46 => ⟨S_, .f32⟩
  | 47 => ⟨S16000x2048, .f32⟩
  | 48 => ⟨S16000x2048, .f32⟩
  | 49 => ⟨S_, .f32⟩
  | 50 => ⟨S16000x2048, .f32⟩
  | 51 => ⟨S16000x2048, .f32⟩
  | 52 => ⟨S16000x2048, .f32⟩
  | 53 => ⟨S16000x2048, .f32⟩
  | 54 => ⟨S16000x2048, .f32⟩
  | 55 => ⟨S16000x2048, .f32⟩
  | 56 => ⟨S16000x1x4, .f32⟩
  | 57 => ⟨S1x2048x4, .f32⟩
  | 58 => ⟨S16000x2048x4, .f32⟩
  | 59 => ⟨S16000x2048x4, .f32⟩
  | 60 => ⟨S16000x2048x4, .f32⟩
  | 61 => ⟨S16000x2048x4, .f32⟩
  | 62 => ⟨S_, .f32⟩
  | 63 => ⟨S16000x2048, .f32⟩
  | 64 => ⟨S16000x1, .f32⟩
  | 65 => ⟨S16000x1, .f32⟩
  | 66 => ⟨S16000x1, .f32⟩
  | 67 => ⟨S16000x1, .f32⟩
  | 68 => ⟨S_, .f32⟩
  | 69 => ⟨S16000x1, .f32⟩
  | 70 => ⟨S16000x1, .f32⟩
  | 71 => ⟨S16000x1, .f32⟩
  | 72 => ⟨S_, .f32⟩
  | 73 => ⟨S16000x1, .f32⟩
  | 74 => ⟨S16000x1, .f32⟩
  | 75 => ⟨S16000x1, .f32⟩
  | 76 => ⟨S_, .f32⟩
  | 77 => ⟨S16000x1, .f32⟩
  | 78 => ⟨S16000x1, .f32⟩
  | 79 => ⟨S16000x1, .f32⟩
  | 80 => ⟨S_, .f32⟩
  | 81 => ⟨S16000x1, .f32⟩
  | 82 => ⟨S16000x1, .f32⟩
  | 83 => ⟨S16000x1, .f32⟩
  | 84 => ⟨S16000x4, .f32⟩
  | 85 => ⟨S2048x1, .f32⟩
  | 86 => ⟨S2048x1, .f32⟩
  | 87 => ⟨S2048x1, .f32⟩
  | 88 => ⟨S2048x1, .f32⟩
  | 89 => ⟨S_, .f32⟩
  | 90 => ⟨S2048x1, .f32⟩
  | 91 => ⟨S2048x1, .f32⟩
  | 92 => ⟨S2048x1, .f32⟩
  | 93 => ⟨S_, .f32⟩
  | 94 => ⟨S2048x1, .f32⟩
  | 95 => ⟨S2048x1, .f32⟩
  | 96 => ⟨S2048x1, .f32⟩
  | 97 => ⟨S_, .f32⟩
  | 98 => ⟨S2048x1, .f32⟩
  | 99 => ⟨S2048x1, .f32⟩
  | 100 => ⟨S2048x1, .f32⟩
  | 101 => ⟨S_, .f32⟩
  | 102 => ⟨S2048x1, .f32⟩
  | 103 => ⟨S2048x1, .f32⟩
  | 104 => ⟨S2048x1, .f32⟩
  | 105 => ⟨S2048x4, .f32⟩
  | 106 => ⟨S16000x1, .f32⟩
  | 107 => ⟨S16000, .f32⟩
  | 108 => ⟨S16000x1, .f32⟩
  | 109 => ⟨S16000, .f32⟩
  | 110 => ⟨S16000, .f32⟩
  | 111 => ⟨S16000x1, .f32⟩
  | 112 => ⟨S16000, .f32⟩
  | 113 => ⟨S16000x1, .f32⟩
  | 114 => ⟨S16000, .f32⟩
  | 115 => ⟨S16000, .f32⟩
  | 116 => ⟨S16000, .f32⟩
  | 117 => ⟨S2048x1, .f32⟩
  | 118 => ⟨S2048, .f32⟩
  | 119 => ⟨S2048x1, .f32⟩
  | 120 => ⟨S2048, .f32⟩
  | 121 => ⟨S2048, .f32⟩
  | 122 => ⟨S2048x1, .f32⟩
  | 123 => ⟨S2048, .f32⟩
  | 124 => ⟨S2048x1, .f32⟩
  | 125 => ⟨S2048, .f32⟩
  | 126 => ⟨S2048, .f32⟩
  | 127 => ⟨S2048, .f32⟩
  | _ => ⟨S16x1000x91, .f32⟩

abbrev hbmTy0_1 (i : Nat) : BufTy := match i % 128 with
  | 0 => ⟨S16000x2, .f32⟩
  | 1 => ⟨S16000x1x2, .f32⟩
  | 2 => ⟨S2048x2, .f32⟩
  | 3 => ⟨S1x2048x2, .f32⟩
  | 4 => ⟨S16000x2048x2, .f32⟩
  | 5 => ⟨S16000x2048x2, .f32⟩
  | 6 => ⟨S16000x2048x2, .f32⟩
  | 7 => ⟨S16000x2, .f32⟩
  | 8 => ⟨S16000x1x2, .f32⟩
  | 9 => ⟨S2048x2, .f32⟩
  | 10 => ⟨S1x2048x2, .f32⟩
  | 11 => ⟨S16000x2048x2, .f32⟩
  | 12 => ⟨S16000x2048x2, .f32⟩
  | 13 => ⟨S16000x2048x2, .f32⟩
  | 14 => ⟨S16000x2048x2, .f32⟩
  | 15 => ⟨S_, .f32⟩
  | 16 => ⟨S_, .f32⟩
  | 17 => ⟨S16000x2048x2, .f32⟩
  | 18 => ⟨S16000x2048x2, .f32⟩
  | 19 => ⟨S16000x2048x1, .f32⟩
  | 20 => ⟨S16000x2048, .f32⟩
  | 21 => ⟨S16000x2048x1, .f32⟩
  | 22 => ⟨S16000x2048, .f32⟩
  | 23 => ⟨S16000x2048, .f32⟩
  | 24 => ⟨S16000x1, .f32⟩
  | 25 => ⟨S1x2048, .f32⟩
  | 26 => ⟨S16000x2048, .f32⟩
  | 27 => ⟨S16000x2048, .f32⟩
  | 28 => ⟨S16000x2048, .f32⟩
  | 29 => ⟨S16000x2048, .f32⟩
  | 30 => ⟨S16000x2048, .f32⟩
  | 31 => ⟨S16000x2, .f32⟩
  | 32 => ⟨S16000x1x2, .f32⟩
  | 33 => ⟨S2048x2, .f32⟩
  | 34 => ⟨S1x2048x2, .f32⟩
  | 35 => ⟨S16000x2048x2, .f32⟩
  | 36 => ⟨S16000x2048x2, .f32⟩
  | 37 => ⟨S16000x2048x2, .f32⟩
  | 38 => ⟨S16000x2, .f32⟩
  | 39 => ⟨S16000x1x2, .f32⟩
  | 40 => ⟨S2048x2, .f32⟩
  | 41 => ⟨S1x2048x2, .f32⟩
  | 42 => ⟨S16000x2048x2, .f32⟩
  | 43 => ⟨S16000x2048x2, .f32⟩
  | 44 => ⟨S16000x2048x2, .f32⟩
  | 45 => ⟨S16000x2048x2, .f32⟩
  | 46 => ⟨S_, .f32⟩
  | 47 => ⟨S_, .f32⟩
  | 48 => ⟨S16000x2048x2, .f32⟩
  | 49 => ⟨S16000x2048x2, .f32⟩
  | 50 => ⟨S16000x2048x1, .f32⟩
  | 51 => ⟨S16000x2048, .f32⟩
  | 52 => ⟨S16000x2048x1, .f32⟩
  | 53 => ⟨S16000x2048, .f32⟩
  | 54 => ⟨S16000x2048, .f32⟩
  | 55 => ⟨S16000x2048, .f32⟩
  | 56 => ⟨S16000x2048, .f32⟩
  | 57 => ⟨S16000x2048, .f32⟩
  | 58 => ⟨S16000x2048, .f32⟩
  | 59 => ⟨S_, .f32⟩
  | 60 => ⟨S16000x2048, .f32⟩
  | 61 => ⟨S16000x2048, .f32⟩
  | 62 => ⟨S_, .f32⟩
  | 63 => ⟨S16000x2048, .f32⟩
  | 64 => ⟨S16000x2048, .f32⟩
  | 65 => ⟨S16000x2048, .f32⟩
  | 66 => ⟨S_, .f32⟩
  | 67 => ⟨S16000x2048, .f32⟩
  | 68 => ⟨S16000x2048, .f32⟩
  | 69 => ⟨S16000x2048, .f32⟩
  | 70 => ⟨S16x1000x16x128, .f32⟩
  | 71 => ⟨S1000x128x16x16, .f32⟩
  | 72 => ⟨S16, .i32⟩
  | 73 => ⟨S16, .i32⟩
  | 74 => ⟨S_, .i32⟩
  | 75 => ⟨S16, .i32⟩
  | 76 => ⟨S16, .i1⟩
  | 77 => ⟨S_, .i32⟩
  | 78 => ⟨S16, .i32⟩
  | 79 => ⟨S16, .i32⟩
  | 80 => ⟨S16, .i32⟩
  | 81 => ⟨S_, .i32⟩
  | 82 => ⟨S16, .i32⟩
  | 83 => ⟨S16, .i1⟩
  | 84 => ⟨S_, .i32⟩
  | 85 => ⟨S16, .i32⟩
  | 86 => ⟨S16, .i32⟩
  | 87 => ⟨S16, .i32⟩
  | 88 => ⟨S16x1, .i32⟩
  | 89 => ⟨S16x1, .i32⟩
  | 90 => ⟨S16x2, .i32⟩
  | 91 => ⟨S1000x128x16, .f32⟩
  | 92 => ⟨S16x1000x128, .f32⟩
  | _ => ⟨S16x1000x91, .f32⟩

abbrev hbmTy (i : Nat) : BufTy := match i / 128 with
  | 0 => hbmTy0_0 i
  | 1 => hbmTy0_1 i
  | _ => ⟨S16x1000x91, .f32⟩

abbrev bufTy : (tb : Table) → Fin (tcTables nBuf tb) → BufTy
  | .hbm, ⟨i, _⟩ => hbmTy i
  | _, _ => ⟨S16x1000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_17 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_cst_19 : Ref sig .tc := ⟨.hbm, 143, rfl⟩
abbrev main_call0_v0 : Ref sig .tc := ⟨.hbm, 144, rfl⟩
abbrev main_call0_v1 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_cst_20 : Ref sig .tc := ⟨.hbm, 174, rfl⟩
abbrev main_call1_v0 : Ref sig .tc := ⟨.hbm, 175, rfl⟩
abbrev main_call1_v1 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_21 : Ref sig .tc := ⟨.hbm, 187, rfl⟩
abbrev main_v156 : Ref sig .tc := ⟨.hbm, 188, rfl⟩
abbrev main_v157 : Ref sig .tc := ⟨.hbm, 189, rfl⟩
abbrev main_cst_22 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_23 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_call2_v0 : Ref sig .tc := ⟨.hbm, 199, rfl⟩
abbrev main_call2_v1 : Ref sig .tc := ⟨.hbm, 200, rfl⟩
abbrev main_call2_v2 : Ref sig .tc := ⟨.hbm, 201, rfl⟩
abbrev main_call2_c : Ref sig .tc := ⟨.hbm, 202, rfl⟩
abbrev main_call2_v3 : Ref sig .tc := ⟨.hbm, 203, rfl⟩
abbrev main_call2_v4 : Ref sig .tc := ⟨.hbm, 204, rfl⟩
abbrev main_call2_c_0 : Ref sig .tc := ⟨.hbm, 205, rfl⟩
abbrev main_call2_v5 : Ref sig .tc := ⟨.hbm, 206, rfl⟩
abbrev main_call2_v6 : Ref sig .tc := ⟨.hbm, 207, rfl⟩
abbrev main_call2_v7 : Ref sig .tc := ⟨.hbm, 208, rfl⟩
abbrev main_call2_c_1 : Ref sig .tc := ⟨.hbm, 209, rfl⟩
abbrev main_call2_v8 : Ref sig .tc := ⟨.hbm, 210, rfl⟩
abbrev main_call2_v9 : Ref sig .tc := ⟨.hbm, 211, rfl⟩
abbrev main_call2_c_2 : Ref sig .tc := ⟨.hbm, 212, rfl⟩
abbrev main_call2_v10 : Ref sig .tc := ⟨.hbm, 213, rfl⟩
abbrev main_call2_v11 : Ref sig .tc := ⟨.hbm, 214, rfl⟩
abbrev main_call2_v12 : Ref sig .tc := ⟨.hbm, 215, rfl⟩
abbrev main_call2_v13 : Ref sig .tc := ⟨.hbm, 216, rfl⟩
abbrev main_call2_v14 : Ref sig .tc := ⟨.hbm, 217, rfl⟩
abbrev main_call2_v15 : Ref sig .tc := ⟨.hbm, 218, rfl⟩
abbrev main_v165 : Ref sig .tc := ⟨.hbm, 219, rfl⟩
abbrev main_v166 : Ref sig .tc := ⟨.hbm, 220, rfl⟩

abbrev nD : Nat := 1
abbrev τ : Topo := Topo.v7x

variable {F : FTy → Type} [FloatOps F]

class Facts₀ : Prop where
  shapeCasts_S16x1000x91_S16000x91 : S16x1000x91.ShapeCasts S16000x91
  bcast_S_S16000x91 : S_.BroadcastsInDim S16000x91 (![] : Fin 0 → Fin S16000x91.rank)
  shapeCasts_S16x1000x4_S16000x4 : S16x1000x4.ShapeCasts S16000x4
  shapeCasts_S16x128_S2048 : S16x128.ShapeCasts S2048
  shapeCasts_S16x128x4_S2048x4 : S16x128x4.ShapeCasts S2048x4
  bcast_S_S2048 : S_.BroadcastsInDim S2048 (![] : Fin 0 → Fin S2048.rank)
  bcast_S2048_S2048x1_0 : S2048.BroadcastsInDim S2048x1 (![0] : Fin 1 → Fin S2048x1.rank)
  bcast_S_S16000x2048 : S_.BroadcastsInDim S16000x2048 (![] : Fin 0 → Fin S16000x2048.rank)
  bcast_S16000x4_S16000x1x4_0_2 : S16000x4.BroadcastsInDim S16000x1x4 (![0, 2] : Fin 2 → Fin S16000x1x4.rank)
  bcast_S2048x4_S1x2048x4_1_2 : S2048x4.BroadcastsInDim S1x2048x4 (![1, 2] : Fin 2 → Fin S1x2048x4.rank)
  bcast_S16000x1x4_S16000x2048x4_0_1_2 : S16000x1x4.BroadcastsInDim S16000x2048x4 (![0, 1, 2] : Fin 3 → Fin S16000x2048x4.rank)
  bcast_S1x2048x4_S16000x2048x4_0_1_2 : S1x2048x4.BroadcastsInDim S16000x2048x4 (![0, 1, 2] : Fin 3 → Fin S16000x2048x4.rank)
  reducesTo_S16000x2048x4_S16000x2048_d2 : S16000x2048x4.ReducesTo [2] S16000x2048
  h_S_ : 0 < S_.numel
  slices_S16000x4_S16000x1_0_0 : S16000x4.Slices ![0, 0] S16000x1
  slices_S16000x4_S16000x1_0_1 : S16000x4.Slices ![0, 1] S16000x1
  slices_S16000x4_S16000x1_0_2 : S16000x4.Slices ![0, 2] S16000x1
  slices_S16000x4_S16000x1_0_3 : S16000x4.Slices ![0, 3] S16000x1
  bcast_S_S16000x1 : S_.BroadcastsInDim S16000x1 (![] : Fin 0 → Fin S16000x1.rank)
  concatenates_S16000x1_S16000x1_S16000x1_S16000x1_S16000x4_d1 : Shape.Concatenates [S16000x1, S16000x1, S16000x1, S16000x1] S16000x4 1
  slices_S2048x4_S2048x1_0_0 : S2048x4.Slices ![0, 0] S2048x1
  slices_S2048x4_S2048x1_0_1 : S2048x4.Slices ![0, 1] S2048x1
  slices_S2048x4_S2048x1_0_2 : S2048x4.Slices ![0, 2] S2048x1
  slices_S2048x4_S2048x1_0_3 : S2048x4.Slices ![0, 3] S2048x1
  bcast_S_S2048x1 : S_.BroadcastsInDim S2048x1 (![] : Fin 0 → Fin S2048x1.rank)
  concatenates_S2048x1_S2048x1_S2048x1_S2048x1_S2048x4_d1 : Shape.Concatenates [S2048x1, S2048x1, S2048x1, S2048x1] S2048x4 1
  shapeCasts_S16000x1_S16000 : S16000x1.ShapeCasts S16000
  shapeCasts_S2048x1_S2048 : S2048x1.ShapeCasts S2048
  slices_S16000x4_S16000x2_0_0 : S16000x4.Slices ![0, 0] S16000x2
  bcast_S16000x2_S16000x1x2_0_2 : S16000x2.BroadcastsInDim S16000x1x2 (![0, 2] : Fin 2 → Fin S16000x1x2.rank)
  slices_S2048x4_S2048x2_0_0 : S2048x4.Slices ![0, 0] S2048x2
  bcast_S2048x2_S1x2048x2_1_2 : S2048x2.BroadcastsInDim S1x2048x2 (![1, 2] : Fin 2 → Fin S1x2048x2.rank)
  bcast_S16000x1x2_S16000x2048x2_0_1_2 : S16000x1x2.BroadcastsInDim S16000x2048x2 (![0, 1, 2] : Fin 3 → Fin S16000x2048x2.rank)
  bcast_S1x2048x2_S16000x2048x2_0_1_2 : S1x2048x2.BroadcastsInDim S16000x2048x2 (![0, 1, 2] : Fin 3 → Fin S16000x2048x2.rank)
  slices_S16000x4_S16000x2_0_2 : S16000x4.Slices ![0, 2] S16000x2
  slices_S2048x4_S2048x2_0_2 : S2048x4.Slices ![0, 2] S2048x2
  bcast_S_S16000x2048x2 : S_.BroadcastsInDim S16000x2048x2 (![] : Fin 0 → Fin S16000x2048x2.rank)
  slices_S16000x2048x2_S16000x2048x1_0_0_0 : S16000x2048x2.Slices ![0, 0, 0] S16000x2048x1
  shapeCasts_S16000x2048x1_S16000x2048 : S16000x2048x1.ShapeCasts S16000x2048
  slices_S16000x2048x2_S16000x2048x1_0_0_1 : S16000x2048x2.Slices ![0, 0, 1] S16000x2048x1
  bcast_S16000_S16000x1_0 : S16000.BroadcastsInDim S16000x1 (![0] : Fin 1 → Fin S16000x1.rank)
  bcast_S2048_S1x2048_1 : S2048.BroadcastsInDim S1x2048 (![1] : Fin 1 → Fin S1x2048.rank)
  bcast_S16000x1_S16000x2048_0_1 : S16000x1.BroadcastsInDim S16000x2048 (![0, 1] : Fin 2 → Fin S16000x2048.rank)
  bcast_S1x2048_S16000x2048_0_1 : S1x2048.BroadcastsInDim S16000x2048 (![0, 1] : Fin 2 → Fin S16000x2048.rank)
  shapeCasts_S16000x2048_S16x1000x16x128 : S16000x2048.ShapeCasts S16x1000x16x128
  transposes_S16x1000x16x128_S1000x128x16x16_1_3_0_2 : S16x1000x16x128.Transposes [1, 3, 0, 2] S1000x128x16x16
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  transposes_S1000x128x16_S16x1000x128_2_0_1 : S1000x128x16.Transposes [2, 0, 1] S16x1000x128
  gather_S16000x91_S2048x1_S16000x2048_0_1_n_n_1_1_160001_wf : GatherDims.WF S16000x91 S2048x1 S16000x2048 [0] [1] [] [1] [] 1 ![16000, 1]
  gather_S1000x128x16x16_S16x2_S1000x128x16_01_23_n_n_23_1_100012811_wf : GatherDims.WF S1000x128x16x16 S16x2 S1000x128x16 [0, 1] [2, 3] [] [2, 3] [] 1 ![1000, 128, 1, 1]

variable [Facts₀]

def gather_S16000x91_S2048x1_S16000x2048_0_1_n_n_1_1_160001 : GatherDims S16000x91 S2048x1 S16000x2048 where
  offsetDims := [0]
  collapsedSliceDims := [1]
  operandBatchingDims := []
  startIndicesBatchingDims := []
  startIndexMap := [1]
  indexVectorDim := 1
  sliceSizes := ![16000, 1]
  wf := gather_S16000x91_S2048x1_S16000x2048_0_1_n_n_1_1_160001_wf
def gather_S1000x128x16x16_S16x2_S1000x128x16_01_23_n_n_23_1_100012811 : GatherDims S1000x128x16x16 S16x2 S1000x128x16 where
  offsetDims := [0, 1]
  collapsedSliceDims := [2, 3]
  operandBatchingDims := []
  startIndicesBatchingDims := []
  startIndexMap := [2, 3]
  indexVectorDim := 1
  sliceSizes := ![1000, 128, 1, 1]
  wf := gather_S1000x128x16x16_S16x2_S1000x128x16_01_23_n_n_23_1_100012811_wf

class Facts : Prop extends Facts₀ where

variable [Facts]
-- ==== Proof.Consts.lean ====
/- The float literals whose exact values the class-cost law needs, as the reals their patterns denote:
   the weights 1/2 and 3/2 of the kernel's folded form, the weights 1/4 and 3/4 and the exponent and
   outer factor 2 of the reference's form, and the 1 and 0 both forms subtract from. Literals that
   appear identically on both sides (the epsilon, the box weights) are never evaluated. -/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_three_halves : Ideal.ofBits .f32 0x3FC00000#32 = ((3 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_three_quarters : Ideal.ofBits .f32 0x3F400000#32 = ((3 / 4 : ℝ) : EReal) := by
  simp [Ideal.ofBits, Ideal.ieee, -EReal.coe_mul]; norm_num

end Cert.Consts

end
-- ==== Proof.Spec.lean ====
/- The matching cost as ONE function of the four argument arrays, index by index.

   For image b, query q and target t the cost is
       5 · L1(box_q, box_t) + focal(p) − 2 · GIoU(box_q, box_t),
   where p is the sigmoid of the query's logit in the target's class, the boxes are given as
   (centre x, centre y, width, height), L1 is the sum of the four absolute coordinate differences, and
   GIoU is the generalized intersection over union of the two boxes' corner forms.
   The class a label word selects is its signed value clamped into the 91 classes.

   Two spellings of the cost are stated: the one the kernel computes (`total`, with the class weight 2
   folded into the focal weights 1/2 and 3/2 and squares written as products) and the one the reference
   computes (`totalRef`: weights 1/4 and 3/4, squares as powers with exponent 2, the outer factor 2, the
   GIoU term added negated, and a negative label wrapped by 91 before the clamp). `GRef_eq_G` joins them
   where every logit is a real number and every label is non-negative. -/
import proofs.«413233_j54786602827871_3_alg».proof.Proof.Consts
import Idealize.ShloMosaic.Lib.ValueIdx

noncomputable section

namespace Cert.Cost

open Idealize.ShloMosaic Idealize.ShloMosaic.ValueIdx

abbrev SLogits : Shape := ⟨3, ![16, 1000, 91]⟩
abbrev SBoxes : Shape := ⟨3, ![16, 1000, 4]⟩
abbrev SLabels : Shape := ⟨2, ![16, 128]⟩
abbrev STgt : Shape := ⟨3, ![16, 128, 4]⟩
abbrev SOut : Shape := ⟨3, ![16, 1000, 128]⟩

/-! ## The literals, as the extended reals their words denote -/

abbrev c0 : EReal := Ideal.ofBits .f32 0x00000000#32
abbrev c1 : EReal := Ideal.ofBits .f32 0x3F800000#32
abbrev c2 : EReal := Ideal.ofBits .f32 0x40000000#32
abbrev c5 : EReal := Ideal.ofBits .f32 0x40A00000#32
abbrev cHalf : EReal := Ideal.ofBits .f32 0x3F000000#32
abbrev cThreeHalves : EReal := Ideal.ofBits .f32 0x3FC00000#32
abbrev cQuarter : EReal := Ideal.ofBits .f32 0x3E800000#32
abbrev cThreeQuarters : EReal := Ideal.ofBits .f32 0x3F400000#32
abbrev cEps : EReal := Ideal.ofBits .f32 0x322BCC77#32

/-! ## The class a label selects -/

/-- The class a label word selects: its signed value clamped into `[0, 90]`. -/
def cls (l : BitVec 32) : Fin 91 := ⟨min l.toInt.toNat 90, by omega⟩

/-- Array indexing's treatment of a negative index: 91 is added to a label below zero. -/
def wrap (l : BitVec 32) : BitVec 32 := Scalar.select (IntOp.cmpi .slt l 0#32) (IntOp.addi l 91#32) l

/-! ## Rows and columns of the flattened all-pairs matrix

The reference first forms the cost of EVERY query of every image against EVERY target of every image, a
[16·1000] × [16·128] matrix, and then keeps the blocks on the diagonal. Row r is query r mod 1000 of image
r div 1000; column s is target s mod 128 of image s div 128. -/

/-- The image of a row of the all-pairs matrix. -/
def rowImg (r : Fin 16000) : Fin 16 := ⟨r.val / 1000, by omega⟩
/-- The query of a row of the all-pairs matrix. -/
def rowQry (r : Fin 16000) : Fin 1000 := ⟨r.val % 1000, by omega⟩
/-- The image of a column of the all-pairs matrix. -/
def colImg (s : Fin 2048) : Fin 16 := ⟨s.val / 128, by omega⟩
/-- The target of a column of the all-pairs matrix. -/
def colTgt (s : Fin 2048) : Fin 128 := ⟨s.val % 128, by omega⟩
/-- The row of query `q` of image `b`. -/
def row (b : Fin 16) (q : Fin 1000) : Fin 16000 := ⟨b.val * 1000 + q.val, by omega⟩
/-- The column of target `t` of image `b`. -/
def col (b : Fin 16) (t : Fin 128) : Fin 2048 := ⟨b.val * 128 + t.val, by omega⟩

theorem rowImg_row (b : Fin 16) (q : Fin 1000) : rowImg (row b q) = b := Fin.ext (by show (b.val * 1000 + q.val) / 1000 = b.val; omega)
theorem rowQry_row (b : Fin 16) (q : Fin 1000) : rowQry (row b q) = q := Fin.ext (by show (b.val * 1000 + q.val) % 1000 = q.val; omega)
theorem colImg_col (b : Fin 16) (t : Fin 128) : colImg (col b t) = b := Fin.ext (by show (b.val * 128 + t.val) / 128 = b.val; omega)
theorem colTgt_col (b : Fin 16) (t : Fin 128) : colTgt (col b t) = t := Fin.ext (by show (b.val * 128 + t.val) % 128 = t.val; omega)

/-! ## The cost of one (query, target) pair -/

/-- The absolute value on the extended reals. -/
def eabs (x : EReal) : EReal := max x (-x)

/-- The L1 distance of two boxes, the four terms added left to right. -/
def l1 (q t : Fin 4 → EReal) : EReal :=
  ((eabs (q 0 - t 0) + eabs (q 1 - t 1)) + eabs (q 2 - t 2)) + eabs (q 3 - t 3)

/-- The generalized intersection over union of two boxes given as (cx, cy, w, h). -/
def giou (q t : Fin 4 → EReal) : EReal :=
  let qx1 := q 0 - cHalf * q 2
  let qy1 := q 1 - cHalf * q 3
  let qx2 := q 0 + cHalf * q 2
  let qy2 := q 1 + cHalf * q 3
  let tx1 := t 0 - cHalf * t 2
  let ty1 := t 1 - cHalf * t 3
  let tx2 := t 0 + cHalf * t 2
  let ty2 := t 1 + cHalf * t 3
  let areaQ := (qx2 - qx1) * (qy2 - qy1)
  let areaT := (tx2 - tx1) * (ty2 - ty1)
  let inter := max (min qx2 tx2 - max qx1 tx1) c0 * max (min qy2 ty2 - max qy1 ty1) c0
  let union := (areaQ + areaT) - inter
  let hull := max (max qx2 tx2 - min qx1 tx1) c0 * max (max qy2 ty2 - min qy1 ty1) c0
  Ideal.div inter union - Ideal.div (hull - union) hull

/-- The focal class cost as the kernel spells it: weight 2 folded in, squares as products, negation as `0 − ·`. -/
def focal (p : EReal) : EReal :=
  (cHalf * ((c1 - p) * (c1 - p))) * (c0 - Ideal.log (p + cEps))
    - (cThreeHalves * (p * p)) * (c0 - Ideal.log ((c1 - p) + cEps))

/-- The focal class cost as the reference spells it, before its outer factor 2. -/
def focalRef (p : EReal) : EReal :=
  (cQuarter * Ideal.pow (c1 - p) c2) * (-(Ideal.log (p + cEps)))
    - (cThreeQuarters * Ideal.pow p c2) * (-(Ideal.log ((c1 - p) + cEps)))

/-- The pair's cost, the kernel's spelling. -/
def total (p : EReal) (q t : Fin 4 → EReal) : EReal :=
  ((c5 * l1 q t) + focal p) - c2 * giou q t

/-- The pair's cost, the reference's spelling. -/
def totalRef (p : EReal) (q t : Fin 4 → EReal) : EReal :=
  ((c5 * l1 q t) + c2 * focalRef p) + c2 * (-(giou q t))

/-! ## The whole array -/

/-- The cost array as the kernel computes it. -/
def G (x : SLogits.Idx → EReal) (bx : SBoxes.Idx → EReal) (lab : SLabels.Idx → BitVec 32) (tb : STgt.Idx → EReal) :
    SOut.Idx → EReal := fun i =>
  total (Ideal.logistic (x (ix3 (n0 := 16) (n1 := 1000) (n2 := 91) ⟨(i 0).val, (i 0).isLt⟩ ⟨(i 1).val, (i 1).isLt⟩
      (cls (lab (ix2 (n0 := 16) (n1 := 128) ⟨(i 0).val, (i 0).isLt⟩ ⟨(i 2).val, (i 2).isLt⟩))))))
    (fun k => bx (ix3 (n0 := 16) (n1 := 1000) (n2 := 4) ⟨(i 0).val, (i 0).isLt⟩ ⟨(i 1).val, (i 1).isLt⟩ k))
    (fun k => tb (ix3 (n0 := 16) (n1 := 128) (n2 := 4) ⟨(i 0).val, (i 0).isLt⟩ ⟨(i 2).val, (i 2).isLt⟩ k))

/-- The cost array as the reference computes it. -/
def GRef (x : SLogits.Idx → EReal) (bx : SBoxes.Idx → EReal) (lab : SLabels.Idx → BitVec 32) (tb : STgt.Idx → EReal) :
    SOut.Idx → EReal := fun i =>
  totalRef (Ideal.logistic (x (ix3 (n0 := 16) (n1 := 1000) (n2 := 91) ⟨(i 0).val, (i 0).isLt⟩ ⟨(i 1).val, (i 1).isLt⟩
      (cls (wrap (lab (ix2 (n0 := 16) (n1 := 128) ⟨(i 0).val, (i 0).isLt⟩ ⟨(i 2).val, (i 2).isLt⟩)))))))
    (fun k => bx (ix3 (n0 := 16) (n1 := 1000) (n2 := 4) ⟨(i 0).val, (i 0).isLt⟩ ⟨(i 1).val, (i 1).isLt⟩ k))
    (fun k => tb (ix3 (n0 := 16) (n1 := 128) (n2 := 4) ⟨(i 0).val, (i 0).isLt⟩ ⟨(i 2).val, (i 2).isLt⟩ k))

/-- `G` at an index given by its coordinates. -/
theorem G_apply (x : SLogits.Idx → EReal) (bx : SBoxes.Idx → EReal) (lab : SLabels.Idx → BitVec 32) (tb : STgt.Idx → EReal)
    (b : Fin 16) (q : Fin 1000) (t : Fin 128) :
    G x bx lab tb (ix3 b q t) = total (Ideal.logistic (x (ix3 b q (cls (lab (ix2 b t))))))
      (fun k => bx (ix3 b q k)) (fun k => tb (ix3 b t k)) := rfl

/-- `GRef` at an index given by its coordinates. -/
theorem GRef_apply (x : SLogits.Idx → EReal) (bx : SBoxes.Idx → EReal) (lab : SLabels.Idx → BitVec 32) (tb : STgt.Idx → EReal)
    (b : Fin 16) (q : Fin 1000) (t : Fin 128) :
    GRef x bx lab tb (ix3 b q t) = totalRef (Ideal.logistic (x (ix3 b q (cls (wrap (lab (ix2 b t)))))))
      (fun k => bx (ix3 b q k)) (fun k => tb (ix3 b t k)) := rfl

/-! ## The two spellings agree -/

/-- A non-negative label is not wrapped. -/
theorem wrap_of_nonneg (l : BitVec 32) (h : 0 ≤ l.toInt) : wrap l = l := by
  have hs : l.slt 0#32 = false := by
    simp only [BitVec.slt, BitVec.toInt_zero]
    exact decide_eq_false (by omega)
  unfold wrap IntOp.cmpi
  simp only [hs]
  rfl

/-- Clipping a label into `[0, 90]` by signed maximum and minimum gives the word of the class it selects. -/
theorem clip_eq_cls (l : BitVec 32) : IntOp.minsi 90#32 (IntOp.maxsi 0#32 l) = BitVec.ofNat 32 (cls l).val := by
  have hl := l.isLt
  have e0 : (0#32 : BitVec 32).toInt = 0 := by decide
  have e90 : (90#32 : BitVec 32).toInt = 90 := by decide
  by_cases h0 : l.toInt < 0
  · have hmax : IntOp.maxsi 0#32 l = 0#32 := by
      unfold IntOp.maxsi
      rw [if_pos (by simp only [BitVec.slt, e0]; exact decide_eq_true h0)]
    have hmin : IntOp.minsi 90#32 0#32 = 0#32 := by decide
    have hc : (cls l).val = 0 := by show min l.toInt.toNat 90 = 0; omega
    rw [hmax, hmin, hc]
  · have hmax : IntOp.maxsi 0#32 l = l := by
      unfold IntOp.maxsi
      rw [if_neg (by simp only [BitVec.slt, e0]; simpa using h0)]
    have hnat : l.toInt.toNat = l.toNat := by
      rw [BitVec.toInt_eq_toNat_cond] at h0 ⊢
      split at h0 <;> split <;> omega
    rw [hmax]
    by_cases h90 : (90 : Int) < l.toInt
    · have hmin : IntOp.minsi 90#32 l = 90#32 := by
        unfold IntOp.minsi
        rw [if_pos (by simp only [BitVec.slt, e90]; exact decide_eq_true h90)]
      have hc : (cls l).val = 90 := by show min l.toInt.toNat 90 = 90; omega
      rw [hmin, hc]
    · have hmin : IntOp.minsi 90#32 l = l := by
        unfold IntOp.minsi
        rw [if_neg (by simp only [BitVec.slt, e90]; simpa using h90)]
      have hc : (cls l).val = l.toNat := by show min l.toInt.toNat 90 = l.toNat; omega
      rw [hmin, hc]
      apply BitVec.eq_of_toNat_eq
      rw [BitVec.toNat_ofNat, Nat.mod_eq_of_lt hl]

/-- The class cost at a real probability: the reference's spelling, doubled, is the kernel's. The factor 2 goes
    inside the difference because it is a non-negative real; the squares written as powers with exponent 2 are
    products; the weights satisfy 2 · 1/4 = 1/2 and 2 · 3/4 = 3/2; and `0 − x` is `−x`. Nothing is asked of the two
    logarithms. -/
theorem focal_eq (p : ℝ) : c2 * focalRef (p : EReal) = focal (p : EReal) := by
  unfold focalRef focal
  simp only [c0, c1, c2, cHalf, cThreeHalves, cQuarter, cThreeQuarters]
  rw [Cert.Consts.ofBits_zero, Cert.Consts.ofBits_one, Cert.Consts.ofBits_two, Cert.Consts.ofBits_half,
    Cert.Consts.ofBits_three_halves, Cert.Consts.ofBits_quarter, Cert.Consts.ofBits_three_quarters]
  generalize Ideal.log ((p : EReal) + cEps) = L1
  generalize Ideal.log ((((1 : ℝ) : EReal) - (p : EReal)) + cEps) = L2
  rw [← EReal.coe_sub, Ideal.pow_coe_coe, Ideal.pow_coe_coe]
  have e1 : Real.rpow (1 - p) 2 = (1 - p) * (1 - p) := by
    show (1 - p) ^ (2 : ℝ) = _
    rw [Real.rpow_two]; ring
  have e2 : Real.rpow p 2 = p * p := by
    show p ^ (2 : ℝ) = _
    rw [Real.rpow_two]; ring
  have fold : ∀ (a b : ℝ) (L : EReal),
      ((2 : ℝ) : EReal) * (((a : ℝ) : EReal) * ((b : ℝ) : EReal) * L) = ((2 * (a * b) : ℝ) : EReal) * L := by
    intro a b L
    rw [← mul_assoc, ← EReal.coe_mul, ← EReal.coe_mul]
  have a1 : (2 : ℝ) * (1 / 4 * ((1 - p) * (1 - p))) = 1 / 2 * ((1 - p) * (1 - p)) := by ring
  have a2 : (2 : ℝ) * (3 / 4 * (p * p)) = 3 / 2 * (p * p) := by ring
  rw [e1, e2, zero_sub, zero_sub]
  rw [EReal.mul_sub_of_nonneg_of_ne_top (by exact_mod_cast (by norm_num : (0 : ℝ) ≤ 2)) (EReal.coe_ne_top 2)]
  rw [fold, fold, a1, a2]
  simp only [← EReal.coe_mul]

/-- The pair cost at a real probability: the reference's spelling is the kernel's. Adding the doubled negated GIoU is
    subtracting the doubled GIoU, whatever extended real the GIoU is. -/
theorem totalRef_eq (p : ℝ) (q t : Fin 4 → EReal) : totalRef (p : EReal) q t = total (p : EReal) q t := by
  unfold totalRef total
  rw [focal_eq, mul_neg, ← sub_eq_add_neg]

/-- With every logit a real number and every label non-negative the reference's spelling is the kernel's. -/
theorem GRef_eq_G (x : SLogits.Idx → EReal) (bx : SBoxes.Idx → EReal) (lab : SLabels.Idx → BitVec 32) (tb : STgt.Idx → EReal)
    (hx : ∀ i, ∃ r : ℝ, x i = (r : EReal)) (hlab : ∀ i, 0 ≤ (lab i).toInt) :
    GRef x bx lab tb = G x bx lab tb := by
  funext i
  obtain ⟨b, q, t, rfl⟩ : ∃ (b : Fin 16) (q : Fin 1000) (t : Fin 128), i = ix3 b q t := ⟨i 0, i 1, i 2, eq_ix3 i⟩
  rw [GRef_apply, G_apply, wrap_of_nonneg _ (hlab _)]
  obtain ⟨r, hr⟩ := hx (ix3 b q (cls (lab (ix2 b t))))
  rw [hr, Ideal.logistic_coe]
  exact totalRef_eq _ _ _

end Cert.Cost

end
-- ==== Proof.PreFacts.lean ====
/- What the precondition says of the inputs, read back from its printed form: it is a conjunction of four
   all-quantified tests, of which two are used here. "|x| < +inf" at every logit makes every logit a real number
   (an extended real that is neither infinity), and "label ≥ 0" as signed words at every label makes every label's
   signed value non-negative. -/
import proofs.«413233_j54786602827871_3_alg».proof.Pre_finite_inputs
import Idealize.ShloMosaic.Lib.ReduceAll
import Idealize.ShloMosaic.Lib.ValueIdx
import Idealize.ShloMosaic.Lib.Pipeline.Value

noncomputable section

namespace Cert.Cost.PreFacts

open Idealize.ShloMosaic Cert.Pre_finite_inputs

instance : Subsingleton S_.Idx := ⟨fun a b => funext fun d => d.elim0⟩

/-- The word of +infinity denotes the top extended real. -/
theorem ofBits_inf : Ideal.ofBits .f32 0x7F800000#32 = (⊤ : EReal) := by
  simp [Ideal.ofBits, Ideal.ieee]

/-- An extended real whose absolute value is below the top is a real number. -/
theorem real_of_abs_lt_top (x : EReal) (h : max x (-x) < ⊤) : ∃ r : ℝ, x = (r : EReal) := by
  induction x using EReal.rec with
  | bot => simp at h
  | coe r => exact ⟨r, rfl⟩
  | top => simp at h

variable [Cert.Pre_finite_inputs.Facts]

/-- From the precondition: every logit is a real number, and every label is non-negative. -/
theorem of_pre (a0 : FVec Ideal S16x1000x91 .f32) (a1 : FVec Ideal S16x1000x4 .f32) (a2 : IVec S16x128 32)
    (a3 : FVec Ideal S16x128x4 .f32) (h : fn (F := Ideal) a0 a1 a2 a3 = fun _ => 1#1) :
    (∀ i, ∃ r : ℝ, a0 i = (r : EReal)) ∧ (∀ i, 0 ≤ (a2 i).toInt) := by
  have h0 := congrFun h ValueIdx.ix0
  dsimp only [fn, fn_part1] at h0
  obtain ⟨h13, h16⟩ := IntOp.andi_eq_one.1 h0
  obtain ⟨h8, -⟩ := IntOp.andi_eq_one.1 h13
  obtain ⟨h3, -⟩ := IntOp.andi_eq_one.1 h8
  refine ⟨fun i => ?_, fun i => ?_⟩
  · have e := Host.reduce_andi_all _ _ _ _ _ h3 i
    have e' : Ideal.cmp .olt (max (a0 i) (-(a0 i))) (Ideal.ofBits .f32 0x7F800000#32) = 1#1 := e
    rw [ofBits_inf] at e'
    refine real_of_abs_lt_top _ ?_
    by_contra hn
    have h0' : Ideal.cmp .olt (max (a0 i) (-(a0 i))) ⊤ = 0#1 := by
      unfold Ideal.cmp
      simp only [decide_eq_false hn]
      rfl
    rw [h0'] at e'
    exact absurd e' (by decide)
  · have e := Host.reduce_andi_all _ _ _ _ _ h16 i
    have e' : IntOp.cmpi .sge (a2 i) 0#32 = 1#1 := e
    have := IntOp.cmpi_sge.1 e'
    simpa using this

end Cert.Cost.PreFacts

end
-- ==== Proof.KernelPayload.lean ====
/- What the kernel body stores at one index of its output block, as the pair cost of the specification. -/
import proofs.«413233_j54786602827871_3_alg».proof.Proof.Gen.KernelIdeal.Frame
import proofs.«413233_j54786602827871_3_alg».proof.Proof.Spec
import Idealize.ShloMosaic.Lib.Pipeline.Value
import Idealize.ShloMosaic.PureOps.Ideal.Laws

noncomputable section

namespace Cert.KernelIdeal.CostValue

open Cert.KernelIdeal Cert.KernelIdeal.Gen Idealize.ShloMosaic Idealize.ShloMosaic.ValueIdx

/-! ## Three more elementwise operations read at an index (the extended reals') -/

section Elementwise
variable {s : Shape} {φ : FTy}

/-- An absolute value at an index is the larger of the element and its negation. -/
theorem absf_apply (a : FVec Ideal s φ) (i : s.Idx) : absf a i = max (a i) (-(a i)) := rfl
/-- A logarithm at an index is the logarithm of the element. -/
theorem log_apply (a : FVec Ideal s φ) (i : s.Idx) : log a i = Ideal.log (a i) := rfl
/-- A logistic at an index is the logistic of the element. -/
theorem logistic_apply (a : FVec Ideal s φ) (i : s.Idx) : logistic a i = Ideal.logistic (a i) := rfl

end Elementwise

/-! ## The layout operations of the body, read at coordinates -/

/-- The transposed query boxes: entry (b, q, j) of the [2,1000,4] array is entry (b, j, q) of the [2,4,1000] block. -/
theorem pay3_apply (x1 : Vec Ideal S2x4x1000 .f32) (b : Fin 2) (q : Fin 1000) (j : Fin 4) :
    k0_pay3 x1 (ix3 b q j) = x1 (ix3 b j q) := by
  unfold k0_pay3
  rw [shapeCast_self]
  exact transpose_apply (s := S2x4x1000) (t := S2x1000x4) [0, 2, 1] x1 transposes_S2x4x1000_p0_2_1_S2x1000x4
    (ix3 b q j) (ix3 b j q) (fun a => by
      match a with
      | ⟨0, _⟩ => rfl
      | ⟨1, _⟩ => rfl
      | ⟨2, _⟩ => rfl)

/-- The identity cast of the target boxes. -/
theorem pay4_eq (x3 : Vec Ideal S2x4x128 .f32) : k0_pay4 x3 = x3 := by
  unfold k0_pay4
  exact shapeCast_self x3 _

/-- Column `c` of the [2,1000,4] query array, as a [2,1000,1] slice: its entry (b, q, 0) is entry (b, q, c). -/
theorem qslice_apply (v : FVec Ideal S2x1000x4 .f32) (off : Fin 3 → Nat) (h : S2x1000x4.Slices off S2x1000x1)
    (c : Fin 4) (h0 : off 0 = 0) (h1 : off 1 = 0) (h2 : off 2 = c.val) (b : Fin 2) (q : Fin 1000) :
    extractStridedSlice S2x1000x1 off v h (ix3 b q (0 : Fin 1)) = v (ix3 b q c) :=
  extractStridedSlice_apply off v h (ix3 b q (0 : Fin 1)) (ix3 b q c) (fun a => by
    match a with
    | ⟨0, _⟩ => show b.val = off 0 + b.val; omega
    | ⟨1, _⟩ => show q.val = off 1 + q.val; omega
    | ⟨2, _⟩ => show c.val = off 2 + 0; omega)

/-- Row `c` of the [2,4,128] target block, as a [2,1,128] slice: its entry (b, 0, t) is entry (b, c, t). -/
theorem tslice_apply (v : FVec Ideal S2x4x128 .f32) (off : Fin 3 → Nat) (h : S2x4x128.Slices off S2x1x128)
    (c : Fin 4) (h0 : off 0 = 0) (h1 : off 1 = c.val) (h2 : off 2 = 0) (b : Fin 2) (t : Fin 128) :
    extractStridedSlice S2x1x128 off v h (ix3 b (0 : Fin 1) t) = v (ix3 b c t) :=
  extractStridedSlice_apply off v h (ix3 b (0 : Fin 1) t) (ix3 b c t) (fun a => by
    match a with
    | ⟨0, _⟩ => show b.val = off 0 + b.val; omega
    | ⟨1, _⟩ => show c.val = off 1 + 0; omega
    | ⟨2, _⟩ => show t.val = off 2 + t.val; omega)

/-- A per-query column [2,1000,1] broadcast along the targets: entry (b, q, t) is entry (b, q, 0). -/
theorem qbroadcast_apply {α : Type} (v : S2x1000x1.Idx → α) (b : Fin 2) (q : Fin 1000) (t : Fin 128) :
    broadcastTo S2x1000x128 v broadcasts_S2x1000x1_S2x1000x128 (ix3 b q t) = v (ix3 b q (0 : Fin 1)) :=
  broadcastTo_apply v broadcasts_S2x1000x1_S2x1000x128 (ix3 b q t) (ix3 b q (0 : Fin 1)) (fun a => by
    match a with
    | ⟨0, _⟩ => rfl
    | ⟨1, _⟩ => rfl
    | ⟨2, _⟩ => rfl)

/-- A per-target row [2,1,128] broadcast along the queries: entry (b, q, t) is entry (b, 0, t). -/
theorem tbroadcast_apply {α : Type} (v : S2x1x128.Idx → α) (b : Fin 2) (q : Fin 1000) (t : Fin 128) :
    broadcastTo S2x1000x128 v broadcasts_S2x1x128_S2x1000x128 (ix3 b q t) = v (ix3 b (0 : Fin 1) t) :=
  broadcastTo_apply v broadcasts_S2x1x128_S2x1000x128 (ix3 b q t) (ix3 b (0 : Fin 1) t) (fun a => by
    match a with
    | ⟨0, _⟩ => rfl
    | ⟨1, _⟩ => rfl
    | ⟨2, _⟩ => rfl)

/-- The label row [2,1,128] broadcast along the 91 classes: entry (b, c, t) is entry (b, 0, t). -/
theorem lbroadcast_apply {α : Type} (v : S2x1x128.Idx → α) (b : Fin 2) (c : Fin 91) (t : Fin 128) :
    broadcastTo S2x91x128 v broadcasts_S2x1x128_S2x91x128 (ix3 b c t) = v (ix3 b (0 : Fin 1) t) :=
  broadcastTo_apply v broadcasts_S2x1x128_S2x91x128 (ix3 b c t) (ix3 b (0 : Fin 1) t) (fun a => by
    match a with
    | ⟨0, _⟩ => rfl
    | ⟨1, _⟩ => rfl
    | ⟨2, _⟩ => rfl)

/-! ## The class cost's product with the one-hot array -/

/-- On the logits' batch axis the product reads the output's image. -/
theorem lhs_axis0 (i : S2x1000x128.Idx) (q : dot_S2x1000x91_S2x91x128_S2x1000x128_2_1_1_2_0_0.contr.Idx) :
    (dot_S2x1000x91_S2x91x128_S2x1000x128_2_1_1_2_0_0.lhsIdx i q 0).val = (i 0).val := by
  unfold DotDims.lhsIdx
  rw [dif_pos (show (0 : Fin S2x1000x91.rank) ∈ dot_S2x1000x91_S2x91x128_S2x1000x128_2_1_1_2_0_0.lhsBatch by decide)]
  rfl
/-- On the logits' query axis the product reads the output's query. -/
theorem lhs_axis1 (i : S2x1000x128.Idx) (q : dot_S2x1000x91_S2x91x128_S2x1000x128_2_1_1_2_0_0.contr.Idx) :
    (dot_S2x1000x91_S2x91x128_S2x1000x128_2_1_1_2_0_0.lhsIdx i q 1).val = (i 1).val := by
  unfold DotDims.lhsIdx
  rw [dif_neg (show ¬(1 : Fin S2x1000x91.rank) ∈ dot_S2x1000x91_S2x91x128_S2x1000x128_2_1_1_2_0_0.lhsBatch by decide),
    dif_pos (show (1 : Fin S2x1000x91.rank) ∈ dot_S2x1000x91_S2x91x128_S2x1000x128_2_1_1_2_0_0.lhsNonContracting by decide)]
  rfl
/-- On the logits' class axis, the contracted one, it reads the contraction's coordinate. -/
theorem lhs_axis2 (i : S2x1000x128.Idx) (q : dot_S2x1000x91_S2x91x128_S2x1000x128_2_1_1_2_0_0.contr.Idx) :
    (dot_S2x1000x91_S2x91x128_S2x1000x128_2_1_1_2_0_0.lhsIdx i q 2).val = (q ⟨0, by decide⟩).val :=
  dot_S2x1000x91_S2x91x128_S2x1000x128_2_1_1_2_0_0.lhsIdx_val_of_single rfl i q
/-- On the one-hot array's batch axis the product reads the output's image. -/
theorem rhs_axis0 (i : S2x1000x128.Idx) (q : dot_S2x1000x91_S2x91x128_S2x1000x128_2_1_1_2_0_0.contr.Idx) :
    (dot_S2x1000x91_S2x91x128_S2x1000x128_2_1_1_2_0_0.rhsIdx i q 0).val = (i 0).val := by
  unfold DotDims.rhsIdx
  rw [dif_pos (show (0 : Fin S2x91x128.rank) ∈ dot_S2x1000x91_S2x91x128_S2x1000x128_2_1_1_2_0_0.rhsBatch by decide)]
  rfl
/-- On the one-hot array's class axis, the contracted one, it reads the contraction's coordinate. -/
theorem rhs_axis1 (i : S2x1000x128.Idx) (q : dot_S2x1000x91_S2x91x128_S2x1000x128_2_1_1_2_0_0.contr.Idx) :
    (dot_S2x1000x91_S2x91x128_S2x1000x128_2_1_1_2_0_0.rhsIdx i q 1).val = (q ⟨0, by decide⟩).val :=
  dot_S2x1000x91_S2x91x128_S2x1000x128_2_1_1_2_0_0.rhsIdx_val_of_single rfl i q
/-- On the one-hot array's target axis the product reads the output's target. -/
theorem rhs_axis2 (i : S2x1000x128.Idx) (q : dot_S2x1000x91_S2x91x128_S2x1000x128_2_1_1_2_0_0.contr.Idx) :
    (dot_S2x1000x91_S2x91x128_S2x1000x128_2_1_1_2_0_0.rhsIdx i q 2).val = (i 2).val := by
  unfold DotDims.rhsIdx
  rw [dif_neg (show ¬(2 : Fin S2x91x128.rank) ∈ dot_S2x1000x91_S2x91x128_S2x1000x128_2_1_1_2_0_0.rhsBatch by decide),
    dif_pos (show (2 : Fin S2x91x128.rank) ∈ dot_S2x1000x91_S2x91x128_S2x1000x128_2_1_1_2_0_0.rhsNonContracting by decide)]
  rfl

/-- The batched product into the zero array, read at (b, q, t): the sum over the 91 classes of the products of the
    left array's entry (b, q, c) and the right array's entry (b, c, t). -/
theorem product_apply (L : FVec Ideal S2x1000x91 .f32) (R : FVec Ideal S2x91x128 .f32) (b : Fin 2) (q : Fin 1000) (t : Fin 128) :
    matmul dot_S2x1000x91_S2x91x128_S2x1000x128_2_1_1_2_0_0 (some .fp32) L R (constant (F := Ideal) S2x1000x128 .f32 0x00000000#32) (ix3 b q t)
      = ∑ c : Fin 91, L (ix3 b q c) * R (ix3 b c t) := by
  simp only [matmul]
  rw [Ideal.matmul_constant_zero_apply, ← Equiv.sum_comp (contrEquiv1 dot_S2x1000x91_S2x91x128_S2x1000x128_2_1_1_2_0_0 91 rfl rfl).symm]
  refine Finset.sum_congr rfl fun c _ => ?_
  have hc := contrEquiv1_symm_val dot_S2x1000x91_S2x91x128_S2x1000x128_2_1_1_2_0_0 91 rfl rfl c
  have el : dot_S2x1000x91_S2x91x128_S2x1000x128_2_1_1_2_0_0.lhsIdx (ix3 b q t) ((contrEquiv1 dot_S2x1000x91_S2x91x128_S2x1000x128_2_1_1_2_0_0 91 rfl rfl).symm c) = ix3 b q c :=
    funext fun a => Fin.ext (by
      match a with
      | ⟨0, _⟩ => exact lhs_axis0 _ _
      | ⟨1, _⟩ => exact lhs_axis1 _ _
      | ⟨2, _⟩ => exact (lhs_axis2 _ _).trans hc)
  have er : dot_S2x1000x91_S2x91x128_S2x1000x128_2_1_1_2_0_0.rhsIdx (ix3 b q t) ((contrEquiv1 dot_S2x1000x91_S2x91x128_S2x1000x128_2_1_1_2_0_0 91 rfl rfl).symm c) = ix3 b c t :=
    funext fun a => Fin.ext (by
      match a with
      | ⟨0, _⟩ => exact rhs_axis0 _ _
      | ⟨1, _⟩ => exact (rhs_axis1 _ _).trans hc
      | ⟨2, _⟩ => exact rhs_axis2 _ _)
  rw [el, er]

/-- The words of two class numbers are equal only if the numbers are: both are below 2^32. -/
theorem classWord_inj (c k : Fin 91) (h : BitVec.ofNat 32 c.val = BitVec.ofNat 32 k.val) : c = k := by
  have hc := c.isLt
  have hk := k.isLt
  have h' := congrArg BitVec.toNat h
  rw [BitVec.toNat_ofNat, BitVec.toNat_ofNat] at h'
  exact Fin.ext (by omega)

/-- The one-hot array of the labels, as the body builds it: the class coordinate compared with the label word of the
    target, the bit widened to a word and converted to a float. -/
def onehot (x2 : Vec Ideal S2x1x128 .i32) : FVec Ideal S2x91x128 .f32 :=
  sitofp .f32 (extui 32 (cmpi .eq (iota .tc S2x91x128 32 [1] iota_S2x91x128_d1_w32)
    (broadcastTo S2x91x128 (shapeCast S2x1x128 x2 shapeCasts_S2x1x128_S2x1x128) broadcasts_S2x1x128_S2x91x128)) natLt_1_32)

/-- Entry (b, c, t) of the one-hot array is 1 when `c` is the class the target's label word names, else 0. -/
theorem onehot_apply (x2 : Vec Ideal S2x1x128 .i32) (b : Fin 2) (c : Fin 91) (t : Fin 128) (k : Fin 91)
    (hk : x2 (ix3 b (0 : Fin 1) t) = BitVec.ofNat 32 k.val) :
    onehot x2 (ix3 b c t) = if c = k then (1 : EReal) else 0 := by
  have hlab : broadcastTo S2x91x128 (shapeCast S2x1x128 x2 shapeCasts_S2x1x128_S2x1x128) broadcasts_S2x1x128_S2x91x128 (ix3 b c t)
      = BitVec.ofNat 32 k.val := by
    rw [shapeCast_self, lbroadcast_apply]; exact hk
  have hio : iota .tc S2x91x128 32 [1] iota_S2x91x128_d1_w32 (ix3 b c t) = BitVec.ofNat 32 c.val :=
    iota_single_apply .tc S2x91x128 32 1 iota_S2x91x128_d1_w32 (ix3 b c t)
  show ((((IntOp.cmpi .eq (iota .tc S2x91x128 32 [1] iota_S2x91x128_d1_w32 (ix3 b c t))
      (broadcastTo S2x91x128 (shapeCast S2x1x128 x2 shapeCasts_S2x1x128_S2x1x128) broadcasts_S2x1x128_S2x91x128 (ix3 b c t))).setWidth 32).toInt : ℝ) : EReal) = _
  rw [hio, hlab]
  by_cases h : c = k
  · subst h
    rw [if_pos rfl]
    have e : IntOp.cmpi .eq (BitVec.ofNat 32 c.val) (BitVec.ofNat 32 c.val) = 1#1 := by
      unfold IntOp.cmpi; simp
    rw [e]
    have e2 : ((1#1 : BitVec 1).setWidth 32).toInt = 1 := by decide
    rw [e2]; norm_num
  · rw [if_neg h]
    have hne : BitVec.ofNat 32 c.val ≠ BitVec.ofNat 32 k.val := fun he => h (classWord_inj c k he)
    have hb : (BitVec.ofNat 32 c.val == BitVec.ofNat 32 k.val) = false := beq_eq_false_iff_ne.mpr hne
    have e : IntOp.cmpi .eq (BitVec.ofNat 32 c.val) (BitVec.ofNat 32 k.val) = 0#1 := by
      show BitVec.ofBool (BitVec.ofNat 32 c.val == BitVec.ofNat 32 k.val) = 0#1
      rw [hb]; rfl
    rw [e]
    have e2 : ((0#1 : BitVec 1).setWidth 32).toInt = 0 := by decide
    rw [e2]; norm_num

/-- The probability the class cost is computed from: the product of the logistic of the logits with the one-hot array
    picks, for the pair (q, t), the logistic of query q's logit in the class target t's label names. Every other term
    of the sum is a product with 0, and the one left is a product with 1. -/
theorem classProb_apply (x0 : FVec Ideal S2x1000x91 .f32) (x2 : Vec Ideal S2x1x128 .i32)
    (b : Fin 2) (q : Fin 1000) (t : Fin 128) (k : Fin 91) (hk : x2 (ix3 b (0 : Fin 1) t) = BitVec.ofNat 32 k.val) :
    matmul dot_S2x1000x91_S2x91x128_S2x1000x128_2_1_1_2_0_0 (some .fp32) (logistic x0) (onehot x2) (constant (F := Ideal) S2x1000x128 .f32 0x00000000#32) (ix3 b q t)
      = Ideal.logistic (x0 (ix3 b q k)) := by
  rw [product_apply]
  rw [Finset.sum_eq_single k]
  · rw [onehot_apply x2 b k t k hk, if_pos rfl, mul_one]; rfl
  · intro c _ hck
    rw [onehot_apply x2 b c t k hk, if_neg hck, mul_zero]
  · intro hk'; exact absurd (Finset.mem_univ k) hk'

/-! ## The payloads, read at coordinates -/

/-- The class cost of the pair (q, t): the focal cost of the logistic of query q's logit in the class target t's label
    names. -/
theorem pay2_apply (x0 : Vec Ideal S2x1000x91 .f32) (x2 : Vec Ideal S2x1x128 .i32)
    (b : Fin 2) (q : Fin 1000) (t : Fin 128) (k : Fin 91) (hk : x2 (ix3 b (0 : Fin 1) t) = BitVec.ofNat 32 k.val) :
    k0_pay2 x0 x2 (ix3 b q t) = Cert.Cost.focal (Ideal.logistic (x0 (ix3 b q k))) := by
  have hp := classProb_apply x0 x2 b q t k hk
  show Cert.Cost.focal (matmul dot_S2x1000x91_S2x91x128_S2x1000x128_2_1_1_2_0_0 (some .fp32) (logistic (φ := .f32) x0) (onehot x2)
      (constant (F := Ideal) S2x1000x128 .f32 0x00000000#32) (ix3 b q t)) = _
  rw [hp]

/-- The four columns of the query array. -/
theorem pay6_apply (v : FVec Ideal S2x1000x4 .f32) (b : Fin 2) (q : Fin 1000) :
    k0_pay6 v (ix3 b q (0 : Fin 1)) = v (ix3 b q (0 : Fin 4)) :=
  qslice_apply v ![0, 0, 0] slices_S2x1000x4_o0_0_0_S2x1000x1 0 rfl rfl rfl b q
theorem pay7_apply (v : FVec Ideal S2x1000x4 .f32) (b : Fin 2) (q : Fin 1000) :
    k0_pay7 v (ix3 b q (0 : Fin 1)) = v (ix3 b q (1 : Fin 4)) :=
  qslice_apply v ![0, 0, 1] slices_S2x1000x4_o0_0_1_S2x1000x1 1 rfl rfl rfl b q
theorem pay8_apply (v : FVec Ideal S2x1000x4 .f32) (b : Fin 2) (q : Fin 1000) :
    k0_pay8 v (ix3 b q (0 : Fin 1)) = v (ix3 b q (2 : Fin 4)) :=
  qslice_apply v ![0, 0, 2] slices_S2x1000x4_o0_0_2_S2x1000x1 2 rfl rfl rfl b q
theorem pay9_apply (v : FVec Ideal S2x1000x4 .f32) (b : Fin 2) (q : Fin 1000) :
    k0_pay9 v (ix3 b q (0 : Fin 1)) = v (ix3 b q (3 : Fin 4)) :=
  qslice_apply v ![0, 0, 3] slices_S2x1000x4_o0_0_3_S2x1000x1 3 rfl rfl rfl b q

/-- The four rows of the target block. -/
theorem pay14_apply (x3 : Vec Ideal S2x4x128 .f32) (b : Fin 2) (t : Fin 128) :
    k0_pay14 x3 (ix3 b (0 : Fin 1) t) = x3 (ix3 b (0 : Fin 4) t) := by
  unfold k0_pay14; rw [pay4_eq]
  exact tslice_apply x3 ![0, 0, 0] slices_S2x4x128_o0_0_0_S2x1x128 0 rfl rfl rfl b t
theorem pay15_apply (x3 : Vec Ideal S2x4x128 .f32) (b : Fin 2) (t : Fin 128) :
    k0_pay15 x3 (ix3 b (0 : Fin 1) t) = x3 (ix3 b (1 : Fin 4) t) := by
  unfold k0_pay15; rw [pay4_eq]
  exact tslice_apply x3 ![0, 1, 0] slices_S2x4x128_o0_1_0_S2x1x128 1 rfl rfl rfl b t
theorem pay16_apply (x3 : Vec Ideal S2x4x128 .f32) (b : Fin 2) (t : Fin 128) :
    k0_pay16 x3 (ix3 b (0 : Fin 1) t) = x3 (ix3 b (2 : Fin 4) t) := by
  unfold k0_pay16; rw [pay4_eq]
  exact tslice_apply x3 ![0, 2, 0] slices_S2x4x128_o0_2_0_S2x1x128 2 rfl rfl rfl b t
theorem pay17_apply (x3 : Vec Ideal S2x4x128 .f32) (b : Fin 2) (t : Fin 128) :
    k0_pay17 x3 (ix3 b (0 : Fin 1) t) = x3 (ix3 b (3 : Fin 4) t) := by
  unfold k0_pay17; rw [pay4_eq]
  exact tslice_apply x3 ![0, 3, 0] slices_S2x4x128_o0_3_0_S2x1x128 3 rfl rfl rfl b t

/-- The L1 distance of query q's box and target t's box. -/
theorem pay5_apply (v : FVec Ideal S2x1000x4 .f32) (x3 : Vec Ideal S2x4x128 .f32) (b : Fin 2) (q : Fin 1000) (t : Fin 128) :
    k0_pay5 v x3 (ix3 b q t) = Cert.Cost.l1 (fun j => v (ix3 b q j)) (fun j => x3 (ix3 b j t)) := by
  have q0 := (qbroadcast_apply (extractStridedSlice S2x1000x1 ![0, 0, 0] v slices_S2x1000x4_o0_0_0_S2x1000x1) b q t).trans
    (qslice_apply v ![0, 0, 0] slices_S2x1000x4_o0_0_0_S2x1000x1 0 rfl rfl rfl b q)
  have q1 := (qbroadcast_apply (extractStridedSlice S2x1000x1 ![0, 0, 1] v slices_S2x1000x4_o0_0_1_S2x1000x1) b q t).trans
    (qslice_apply v ![0, 0, 1] slices_S2x1000x4_o0_0_1_S2x1000x1 1 rfl rfl rfl b q)
  have q2 := (qbroadcast_apply (extractStridedSlice S2x1000x1 ![0, 0, 2] v slices_S2x1000x4_o0_0_2_S2x1000x1) b q t).trans
    (qslice_apply v ![0, 0, 2] slices_S2x1000x4_o0_0_2_S2x1000x1 2 rfl rfl rfl b q)
  have q3 := (qbroadcast_apply (extractStridedSlice S2x1000x1 ![0, 0, 3] v slices_S2x1000x4_o0_0_3_S2x1000x1) b q t).trans
    (qslice_apply v ![0, 0, 3] slices_S2x1000x4_o0_0_3_S2x1000x1 3 rfl rfl rfl b q)
  have t0 := (tbroadcast_apply (extractStridedSlice S2x1x128 ![0, 0, 0] x3 slices_S2x4x128_o0_0_0_S2x1x128) b q t).trans
    (tslice_apply x3 ![0, 0, 0] slices_S2x4x128_o0_0_0_S2x1x128 0 rfl rfl rfl b t)
  have t1 := (tbroadcast_apply (extractStridedSlice S2x1x128 ![0, 1, 0] x3 slices_S2x4x128_o0_1_0_S2x1x128) b q t).trans
    (tslice_apply x3 ![0, 1, 0] slices_S2x4x128_o0_1_0_S2x1x128 1 rfl rfl rfl b t)
  have t2 := (tbroadcast_apply (extractStridedSlice S2x1x128 ![0, 2, 0] x3 slices_S2x4x128_o0_2_0_S2x1x128) b q t).trans
    (tslice_apply x3 ![0, 2, 0] slices_S2x4x128_o0_2_0_S2x1x128 2 rfl rfl rfl b t)
  have t3 := (tbroadcast_apply (extractStridedSlice S2x1x128 ![0, 3, 0] x3 slices_S2x4x128_o0_3_0_S2x1x128) b q t).trans
    (tslice_apply x3 ![0, 3, 0] slices_S2x4x128_o0_3_0_S2x1x128 3 rfl rfl rfl b t)
  unfold k0_pay5
  rw [pay4_eq]
  simp only [addf_apply, absf_apply, subf_apply]
  rw [q0, q1, q2, q3, t0, t1, t2, t3]
  rfl

/-- The corner forms of a query box: centre minus or plus half the extent. -/
theorem pay10_apply (v : FVec Ideal S2x1000x4 .f32) (b : Fin 2) (q : Fin 1000) :
    k0_pay10 v (ix3 b q (0 : Fin 1)) = v (ix3 b q (0 : Fin 4)) - Cert.Cost.cHalf * v (ix3 b q (2 : Fin 4)) := by
  unfold k0_pay10
  simp only [subf_apply, mulf_apply, broadcast_apply, pay6_apply, pay8_apply]
  rfl
theorem pay11_apply (v : FVec Ideal S2x1000x4 .f32) (b : Fin 2) (q : Fin 1000) :
    k0_pay11 v (ix3 b q (0 : Fin 1)) = v (ix3 b q (1 : Fin 4)) - Cert.Cost.cHalf * v (ix3 b q (3 : Fin 4)) := by
  unfold k0_pay11
  simp only [subf_apply, mulf_apply, broadcast_apply, pay7_apply, pay9_apply]
  rfl
theorem pay12_apply (v : FVec Ideal S2x1000x4 .f32) (b : Fin 2) (q : Fin 1000) :
    k0_pay12 v (ix3 b q (0 : Fin 1)) = v (ix3 b q (0 : Fin 4)) + Cert.Cost.cHalf * v (ix3 b q (2 : Fin 4)) := by
  unfold k0_pay12
  simp only [addf_apply, mulf_apply, broadcast_apply, pay6_apply, pay8_apply]
  rfl
theorem pay13_apply (v : FVec Ideal S2x1000x4 .f32) (b : Fin 2) (q : Fin 1000) :
    k0_pay13 v (ix3 b q (0 : Fin 1)) = v (ix3 b q (1 : Fin 4)) + Cert.Cost.cHalf * v (ix3 b q (3 : Fin 4)) := by
  unfold k0_pay13
  simp only [addf_apply, mulf_apply, broadcast_apply, pay7_apply, pay9_apply]
  rfl

/-- The left edge of a target box. -/
theorem pay18_apply (x3 : Vec Ideal S2x4x128 .f32) (b : Fin 2) (t : Fin 128) :
    k0_pay18 x3 (ix3 b (0 : Fin 1) t) = x3 (ix3 b (0 : Fin 4) t) - Cert.Cost.cHalf * x3 (ix3 b (2 : Fin 4) t) := by
  unfold k0_pay18
  simp only [subf_apply, mulf_apply, broadcast_apply, pay14_apply, pay16_apply]
  rfl

/-- The constant one half, as a row. -/
theorem pay19_apply (i : S2x1x128.Idx) : k0_pay19 (F := Ideal) i = Cert.Cost.cHalf := rfl

/-- The other three edges of a target box, from its rows. -/
theorem pay20_apply (v84 v86 v90 : FVec Ideal S2x1x128 .f32) (i : S2x1x128.Idx) :
    k0_pay20 v84 v86 v90 i = v84 i - v90 i * v86 i := rfl
theorem pay21_apply (v83 v85 : FVec Ideal S2x1x128 .f32) (i : S2x1x128.Idx) :
    k0_pay21 v83 v85 i = v83 i + Cert.Cost.cHalf * v85 i := rfl
theorem pay22_apply (v84 v86 : FVec Ideal S2x1x128 .f32) (i : S2x1x128.Idx) :
    k0_pay22 v84 v86 i = v84 i + Cert.Cost.cHalf * v86 i := rfl

/-- The intersection of the two boxes' corner forms: the product of the clipped overlaps along x and along y. -/
theorem pay23_apply (v73 v76 v79 v82 : FVec Ideal S2x1000x1 .f32) (v83 v84 v85 v86 v89 v90 : FVec Ideal S2x1x128 .f32)
    (b : Fin 2) (q : Fin 1000) (t : Fin 128) :
    k0_pay23 v73 v76 v79 v82 v83 v84 v85 v86 v89 v90 (ix3 b q t)
      = max (min (v79 (ix3 b q (0 : Fin 1))) (k0_pay21 v83 v85 (ix3 b (0 : Fin 1) t))
            - max (v73 (ix3 b q (0 : Fin 1))) (v89 (ix3 b (0 : Fin 1) t))) Cert.Cost.c0
        * max (min (v82 (ix3 b q (0 : Fin 1))) (k0_pay22 v84 v86 (ix3 b (0 : Fin 1) t))
            - max (v76 (ix3 b q (0 : Fin 1))) (k0_pay20 v84 v86 v90 (ix3 b (0 : Fin 1) t))) Cert.Cost.c0 := by
  unfold k0_pay23
  simp only [mulf_apply, maximumf_apply, minimumf_apply, subf_apply, broadcast_apply, qbroadcast_apply, tbroadcast_apply]
  rfl

/-- The union of the two boxes: the sum of their areas less the intersection. -/
theorem pay24_apply (v73 v76 v79 v82 : FVec Ideal S2x1000x1 .f32) (v83 v84 v85 v86 v89 v90 : FVec Ideal S2x1x128 .f32)
    (b : Fin 2) (q : Fin 1000) (t : Fin 128) :
    k0_pay24 v73 v76 v79 v82 v83 v84 v85 v86 v89 v90 (ix3 b q t)
      = ((v79 (ix3 b q (0 : Fin 1)) - v73 (ix3 b q (0 : Fin 1))) * (v82 (ix3 b q (0 : Fin 1)) - v76 (ix3 b q (0 : Fin 1)))
          + (k0_pay21 v83 v85 (ix3 b (0 : Fin 1) t) - v89 (ix3 b (0 : Fin 1) t))
            * (k0_pay22 v84 v86 (ix3 b (0 : Fin 1) t) - k0_pay20 v84 v86 v90 (ix3 b (0 : Fin 1) t)))
        - k0_pay23 v73 v76 v79 v82 v83 v84 v85 v86 v89 v90 (ix3 b q t) := by
  unfold k0_pay24
  simp only [mulf_apply, addf_apply, subf_apply, qbroadcast_apply, tbroadcast_apply]

/-- The intersection over the union. -/
theorem pay25_apply (v73 v76 v79 v82 : FVec Ideal S2x1000x1 .f32) (v83 v84 v85 v86 v89 v90 : FVec Ideal S2x1x128 .f32)
    (i : S2x1000x128.Idx) :
    k0_pay25 v73 v76 v79 v82 v83 v84 v85 v86 v89 v90 i
      = Ideal.div (k0_pay23 v73 v76 v79 v82 v83 v84 v85 v86 v89 v90 i) (k0_pay24 v73 v76 v79 v82 v83 v84 v85 v86 v89 v90 i) := rfl

/-- The enclosing box's extent along x, clipped at zero. -/
theorem pay26_apply (v73 v79 : FVec Ideal S2x1000x1 .f32) (v83 v85 v89 : FVec Ideal S2x1x128 .f32)
    (b : Fin 2) (q : Fin 1000) (t : Fin 128) :
    k0_pay26 v73 v79 v83 v85 v89 (ix3 b q t)
      = max (max (v79 (ix3 b q (0 : Fin 1))) (k0_pay21 v83 v85 (ix3 b (0 : Fin 1) t))
            - min (v73 (ix3 b q (0 : Fin 1))) (v89 (ix3 b (0 : Fin 1) t))) Cert.Cost.c0 := by
  unfold k0_pay26
  simp only [maximumf_apply, minimumf_apply, subf_apply, broadcast_apply, qbroadcast_apply, tbroadcast_apply]
  rfl

/-- The enclosing box's extent along y, before it is clipped. -/
theorem pay27_apply (v76 v82 : FVec Ideal S2x1000x1 .f32) (v84 v86 v90 : FVec Ideal S2x1x128 .f32)
    (b : Fin 2) (q : Fin 1000) (t : Fin 128) :
    k0_pay27 v76 v82 v84 v86 v90 (ix3 b q t)
      = max (v82 (ix3 b q (0 : Fin 1))) (k0_pay22 v84 v86 (ix3 b (0 : Fin 1) t))
          - min (v76 (ix3 b q (0 : Fin 1))) (k0_pay20 v84 v86 v90 (ix3 b (0 : Fin 1) t)) := by
  unfold k0_pay27
  simp only [maximumf_apply, minimumf_apply, subf_apply, qbroadcast_apply, tbroadcast_apply]

/-- The stored value from its six parts: five times the L1 distance plus the class cost, less twice the generalized
    intersection over union (the intersection over the union less the enclosing box's excess over the union, relative
    to the enclosing box). -/
theorem pay1_apply (v34 v66 v127 v128 v143 v144 : FVec Ideal S2x1000x128 .f32) (z : Ideal .f32) (i : S2x1000x128.Idx) :
    k0_pay1 v34 v66 v127 v128 v143 v144 z i
      = ((Cert.Cost.c5 * v66 i) + v34 i)
        - Cert.Cost.c2 * (v128 i - Ideal.div (v143 i * max (v144 i) z - v127 i) (v143 i * max (v144 i) z)) := rfl

/-- Entry (b, q, t) of the block the body stores, from the four input blocks: the pair cost of query q's logit in
    class k and box against target t's box, where k is the class the (already clipped) label word of target t names. -/
theorem out_apply (x0 : Vec Ideal S2x1000x91 .f32) (x1 : Vec Ideal S2x4x1000 .f32) (x2 : Vec Ideal S2x1x128 .i32) (x3 : Vec Ideal S2x4x128 .f32)
    (b : Fin 2) (q : Fin 1000) (t : Fin 128) (k : Fin 91) (hk : x2 (ix3 b (0 : Fin 1) t) = BitVec.ofNat 32 k.val) :
    out0_4 (F := Ideal) x0 x1 x2 x3 (ix3 b q t)
      = Cert.Cost.total (Ideal.logistic (x0 (ix3 b q k))) (fun j => x1 (ix3 b j q)) (fun j => x3 (ix3 b j t)) := by
  have hz : (![0, 0, 0] : Fin 3 → Nat) = fun _ => 0 := funext fun a => by fin_cases a <;> rfl
  unfold out0_4
  rw [View.canon_unit_zero hz]
  simp only [View.ld_unit_zero (S := S2x1000x91) hz, View.ld_unit_zero (S := S2x4x1000) hz,
    View.ld_unit_zero (S := S2x1x128) hz, View.ld_unit_zero (S := S2x4x128) hz]
  rw [pay1_apply, pay2_apply x0 x2 b q t k hk, pay5_apply, pay25_apply, pay24_apply, pay23_apply, pay26_apply, pay27_apply]
  simp only [pay20_apply, pay21_apply, pay22_apply, pay19_apply, pay18_apply, pay14_apply, pay15_apply, pay16_apply,
    pay17_apply, pay10_apply, pay11_apply, pay12_apply, pay13_apply, pay3_apply]
  rfl

end Cert.KernelIdeal.CostValue

end
-- ==== Proof.KernelHost.lean ====
/- The three arrays the host prepares for the kernel, read at an index: the two box arrays transposed, and the labels
   clipped into the class range. -/
import proofs.«413233_j54786602827871_3_alg».proof.Proof.Gen.KernelIdeal.Frame
import proofs.«413233_j54786602827871_3_alg».proof.Proof.Spec
import Idealize.ShloMosaic.Lib.Pipeline.Value

noncomputable section

namespace Cert.KernelIdeal.CostValue

open Cert.KernelIdeal Cert.KernelIdeal.Gen Idealize.ShloMosaic Idealize.ShloMosaic.TcCoe Idealize.ShloMosaic.ValueIdx

variable (m : (ℓ : Loc nD τ sig) → Buf (Elt Ideal) ℓ)

/-- The query boxes as the region finds them are the argument's with its last two axes exchanged. -/
theorem V_boxes_eq (c : Dev nD) :
    (V m c main_v2 : S16x4x1000.Idx → EReal)
      = transpose S16x4x1000 [0, 2, 1] (m ((c : Thread nD τ).loc main_arg1) : S16x1000x4.Idx → EReal)
          transposes_S16x1000x4_S16x4x1000_0_2_1 := by
  dsimp only [V]
  simp only [hostOps0, hostOps0_1, hostOps0_2, List.flatten_cons, List.flatten_nil, List.append_nil, List.cons_append,
    List.nil_append]
  after_results

/-- The target boxes as the region finds them are the argument's with its last two axes exchanged. -/
theorem V_tgt_eq (c : Dev nD) :
    (V m c main_v3 : S16x4x128.Idx → EReal)
      = transpose S16x4x128 [0, 2, 1] (m ((c : Thread nD τ).loc main_arg3) : S16x128x4.Idx → EReal)
          transposes_S16x128x4_S16x4x128_0_2_1 := by
  dsimp only [V]
  simp only [hostOps0, hostOps0_1, hostOps0_2, List.flatten_cons, List.flatten_nil, List.append_nil, List.cons_append,
    List.nil_append]
  after_results

/-- The labels as the region finds them: the argument's, each word first raised to at least 0 and then lowered to at
    most 90 (both bounds broadcast from scalars), laid out with a unit axis between image and target. -/
theorem V_ids_eq (c : Dev nD) :
    (V m c main_v1 : S16x1x128.Idx → BitVec 32)
      = shapeCast S16x1x128
          (minsi (broadcastInDim S16x128 ![] bcast_S_S16x128 (constantI S_ 32 90#32))
            (maxsi (broadcastInDim S16x128 ![] bcast_S_S16x128 (constantI S_ 32 0#32))
              (m ((c : Thread nD τ).loc main_arg2) : S16x128.Idx → BitVec 32)))
          shapeCasts_S16x128_S16x1x128 := by
  dsimp only [V]
  simp only [hostOps0, hostOps0_1, hostOps0_2, List.flatten_cons, List.flatten_nil, List.append_nil, List.cons_append,
    List.nil_append]
  after_results
  rfl

/-- The query boxes as the region finds them: coordinate j of query q of image b. -/
theorem V_boxesT (c : Dev nD) (b : Fin 16) (j : Fin 4) (q : Fin 1000) :
    (V m c main_v2 : S16x4x1000.Idx → EReal) (ix3 b j q) = (m ((c : Thread nD τ).loc main_arg1) : S16x1000x4.Idx → EReal) (ix3 b q j) := by
  rw [V_boxes_eq]
  exact transpose_apply _ _ _ (ix3 b j q) (ix3 b q j) (fun a => match a with | ⟨0, _⟩ => rfl | ⟨1, _⟩ => rfl | ⟨2, _⟩ => rfl)

/-- The target boxes as the region finds them: coordinate j of target t of image b. -/
theorem V_tgtT (c : Dev nD) (b : Fin 16) (j : Fin 4) (t : Fin 128) :
    (V m c main_v3 : S16x4x128.Idx → EReal) (ix3 b j t) = (m ((c : Thread nD τ).loc main_arg3) : S16x128x4.Idx → EReal) (ix3 b t j) := by
  rw [V_tgt_eq]
  exact transpose_apply _ _ _ (ix3 b j t) (ix3 b t j) (fun a => match a with | ⟨0, _⟩ => rfl | ⟨1, _⟩ => rfl | ⟨2, _⟩ => rfl)

/-- The labels as the region finds them: the word of the class the label selects. Entry (b, 0, t) of the [16, 1, 128]
    layout sits at row-major position 128 b + t, which is entry (b, t) of the [16, 128] one; there the word is the
    label clipped into [0, 90], the word of its class. -/
theorem V_ids (c : Dev nD) (b : Fin 16) (t : Fin 128) :
    (V m c main_v1 : S16x1x128.Idx → BitVec 32) (ix3 b (0 : Fin 1) t)
      = BitVec.ofNat 32 (Cert.Cost.cls ((m ((c : Thread nD τ).loc main_arg2) : S16x128.Idx → BitVec 32) (ix2 b t))).val := by
  rw [V_ids_eq]
  refine (shapeCast_apply _ _ (ix3 b (0 : Fin 1) t) (ix2 b t) ?_).trans ?_
  · rw [Shape.rowMajor_val_two, Shape.rowMajor_val_three]
    show b.val * 128 + t.val = (b.val * 1 + 0) * 128 + t.val
    omega
  · exact Cert.Cost.clip_eq_cls _

end Cert.KernelIdeal.CostValue

end
-- ==== Proof.KernelRun.lean ====
/- The kernel's run: its result array is the specification's cost array of the argument arrays. -/
import proofs.«413233_j54786602827871_3_alg».proof.Proof.Gen.KernelIdeal.Value
import proofs.«413233_j54786602827871_3_alg».proof.Proof.KernelPayload
import proofs.«413233_j54786602827871_3_alg».proof.Proof.KernelHost

noncomputable section

namespace Cert.KernelIdeal.CostValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The blocks of a grid point

The grid has 8 points; point t works on the two images 2t and 2t + 1, whole: every window's block index at point t is
(t, 0, 0), and every block is two images thick. So entry (b, …) of a block at point t is entry (2t + b, …) of its array. -/

/-- Every window's block index at a grid point is the point itself on the image axis and 0 on the other two. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- The logits' block at point t: class k of query q of image 2t + b. -/
theorem blk_logits (c : Dev nD) (t : Fin cfg0.N) (b : Fin 2) (q : Fin 1000) (k : Fin 91) (B : Fin 16)
    (hB : B.val = 2 * t.val + b.val) :
    (iblk m c 0 t : Vec Ideal S2x1000x91 .f32) (ix3 b q k) = (V m c main_arg0 : S16x1000x91.Idx → EReal) (ix3 B q k) := by
  obtain ⟨⟨e0, e1, e2⟩, -⟩ := idx_facts t
  unfold iblk
  rw [View.read_apply]
  show V m c main_arg0 _ = V m c main_arg0 _
  refine congrArg _ (funext fun a => Fin.ext ?_)
  match a with
  | ⟨0, _⟩ => show win0_0.index t (0 : Fin 3) * 2 + 1 * b.val = B.val; rw [e0, hB]; omega
  | ⟨1, _⟩ => show win0_0.index t (1 : Fin 3) * 1000 + 1 * q.val = q.val; rw [e1]; omega
  | ⟨2, _⟩ => show win0_0.index t (2 : Fin 3) * 91 + 1 * k.val = k.val; rw [e2]; omega

/-- The transposed query boxes' block at point t: coordinate j of query q of image 2t + b. -/
theorem blk_boxes (c : Dev nD) (t : Fin cfg0.N) (b : Fin 2) (j : Fin 4) (q : Fin 1000) (B : Fin 16)
    (hB : B.val = 2 * t.val + b.val) :
    (iblk m c 1 t : Vec Ideal S2x4x1000 .f32) (ix3 b j q) = (V m c main_v2 : S16x4x1000.Idx → EReal) (ix3 B j q) := by
  obtain ⟨-, ⟨e0, e1, e2⟩, -⟩ := idx_facts t
  unfold iblk
  rw [View.read_apply]
  show V m c main_v2 _ = V m c main_v2 _
  refine congrArg _ (funext fun a => Fin.ext ?_)
  match a with
  | ⟨0, _⟩ => show win0_1.index t (0 : Fin 3) * 2 + 1 * b.val = B.val; rw [e0, hB]; omega
  | ⟨1, _⟩ => show win0_1.index t (1 : Fin 3) * 4 + 1 * j.val = j.val; rw [e1]; omega
  | ⟨2, _⟩ => show win0_1.index t (2 : Fin 3) * 1000 + 1 * q.val = q.val; rw [e2]; omega

/-- The clipped labels' block at point t: target s of image 2t + b. -/
theorem blk_ids (c : Dev nD) (t : Fin cfg0.N) (b : Fin 2) (s : Fin 128) (B : Fin 16)
    (hB : B.val = 2 * t.val + b.val) :
    (iblk m c 2 t : Vec Ideal S2x1x128 .i32) (ix3 b (0 : Fin 1) s)
      = (V m c main_v1 : S16x1x128.Idx → BitVec 32) (ix3 B (0 : Fin 1) s) := by
  obtain ⟨-, -, ⟨e0, e1, e2⟩, -⟩ := idx_facts t
  unfold iblk
  rw [View.read_apply]
  show V m c main_v1 _ = V m c main_v1 _
  refine congrArg _ (funext fun a => Fin.ext ?_)
  match a with
  | ⟨0, _⟩ => show win0_2.index t (0 : Fin 3) * 2 + 1 * b.val = B.val; rw [e0, hB]; omega
  | ⟨1, _⟩ => show win0_2.index t (1 : Fin 3) * 1 + 1 * 0 = 0; rw [e1]
  | ⟨2, _⟩ => show win0_2.index t (2 : Fin 3) * 128 + 1 * s.val = s.val; rw [e2]; omega

/-- The transposed target boxes' block at point t: coordinate j of target s of image 2t + b. -/
theorem blk_tgt (c : Dev nD) (t : Fin cfg0.N) (b : Fin 2) (j : Fin 4) (s : Fin 128) (B : Fin 16)
    (hB : B.val = 2 * t.val + b.val) :
    (iblk m c 3 t : Vec Ideal S2x4x128 .f32) (ix3 b j s) = (V m c main_v3 : S16x4x128.Idx → EReal) (ix3 B j s) := by
  obtain ⟨-, -, -, ⟨e0, e1, e2⟩, -⟩ := idx_facts t
  unfold iblk
  rw [View.read_apply]
  show V m c main_v3 _ = V m c main_v3 _
  refine congrArg _ (funext fun a => Fin.ext ?_)
  match a with
  | ⟨0, _⟩ => show win0_3.index t (0 : Fin 3) * 2 + 1 * b.val = B.val; rw [e0, hB]; omega
  | ⟨1, _⟩ => show win0_3.index t (1 : Fin 3) * 4 + 1 * j.val = j.val; rw [e1]; omega
  | ⟨2, _⟩ => show win0_3.index t (2 : Fin 3) * 128 + 1 * s.val = s.val; rw [e2]; omega

/-! ## What a point stores -/

/-- The pair cost depends only on its three arguments. -/
theorem total_congr {p p' : EReal} {q q' t t' : Fin 4 → EReal} (hp : p = p') (hq : q = q') (ht : t = t') :
    Cert.Cost.total p q t = Cert.Cost.total p' q' t' := by
  subst hp hq ht; rfl

/-- Entry (b, q, s) of what point t stores is the cost array's entry (2t + b, q, s): the label word the block holds
    is the class word of the label of target s of image 2t + b, so the body reads the logit of that class; the box
    blocks are the transposed arrays' rows of that image, which are the arguments' columns. -/
theorem point_apply (c : Dev nD) (t : Fin cfg0.N) (b : Fin 2) (q : Fin 1000) (s : Fin 128) (B : Fin 16)
    (hB : B.val = 2 * t.val + b.val) :
    out0_4 (F := Ideal) (iblk m c 0 t) (iblk m c 1 t) (iblk m c 2 t) (iblk m c 3 t) (ix3 b q s)
      = (Cert.Cost.G (m ((c : Thread nD τ).loc main_arg0)) (m ((c : Thread nD τ).loc main_arg1))
        (m ((c : Thread nD τ).loc main_arg2)) (m ((c : Thread nD τ).loc main_arg3))) (ix3 B q s) := by
  have hk : (iblk m c 2 t : Vec Ideal S2x1x128 .i32) (ix3 b (0 : Fin 1) s)
      = BitVec.ofNat 32 (Cert.Cost.cls ((m ((c : Thread nD τ).loc main_arg2) : S16x128.Idx → BitVec 32) (ix2 B s))).val :=
    (blk_ids m c t b s B hB).trans (V_ids m c B s)
  have h0 : (iblk m c 0 t : Vec Ideal S2x1000x91 .f32)
        (ix3 b q (Cert.Cost.cls ((m ((c : Thread nD τ).loc main_arg2) : S16x128.Idx → BitVec 32) (ix2 B s))))
      = (m ((c : Thread nD τ).loc main_arg0) : S16x1000x91.Idx → EReal)
        (ix3 B q (Cert.Cost.cls ((m ((c : Thread nD τ).loc main_arg2) : S16x128.Idx → BitVec 32) (ix2 B s)))) :=
    (blk_logits m c t b q _ B hB).trans (congrFun (V_main_arg0 m c) _)
  have h1 : (fun j => (iblk m c 1 t : Vec Ideal S2x4x1000 .f32) (ix3 b j q))
      = fun j => (m ((c : Thread nD τ).loc main_arg1) : S16x1000x4.Idx → EReal) (ix3 B q j) :=
    funext fun j => (blk_boxes m c t b j q B hB).trans (V_boxesT m c B j q)
  have h3 : (fun j => (iblk m c 3 t : Vec Ideal S2x4x128 .f32) (ix3 b j s))
      = fun j => (m ((c : Thread nD τ).loc main_arg3) : S16x128x4.Idx → EReal) (ix3 B s j) :=
    funext fun j => (blk_tgt m c t b j s B hB).trans (V_tgtT m c B j s)
  refine (out_apply (iblk m c 0 t) (iblk m c 1 t) (iblk m c 2 t) (iblk m c 3 t) b q s _ hk).trans ?_
  refine (total_congr (congrArg Ideal.logistic h0) h1 h3).trans ?_
  exact (Cert.Cost.G_apply _ _ _ _ B q s).symm

/-- WHAT POINT t WRITES BACK is block t of the cost array of the argument arrays. -/
theorem flushed_eq (c : Dev nD) (t : Fin cfg0.N) :
    (dats m 0 c).flushed 4 t = ((cfg0.win 4).blk t).view.read (Elt Ideal)
      (Cert.Cost.G (m ((c : Thread nD τ).loc main_arg0)) (m ((c : Thread nD τ).loc main_arg1))
        (m ((c : Thread nD τ).loc main_arg2)) (m ((c : Thread nD τ).loc main_arg3))) := by
  have hN : cfg0.N = 8 := N_0
  obtain ⟨-, -, -, -, e0, e1, e2⟩ := idx_facts t
  rw [Value.flushed4]
  funext y
  obtain ⟨b, q, s, rfl⟩ : ∃ (b : Fin 2) (q : Fin 1000) (s : Fin 128), y = ix3 b q s :=
    ⟨y 0, y 1, y 2, eq_ix3 (n0 := 2) (n1 := 1000) (n2 := 128) y⟩
  have ht : t.val < cfg0.N := t.isLt
  have hb : b.val < 2 := b.isLt
  refine (point_apply m c t b q s ⟨2 * t.val + b.val, by omega⟩ rfl).trans ?_
  rw [View.read_apply]
  refine congrArg _ (funext fun a => Fin.ext ?_)
  match a with
  | ⟨0, _⟩ => show 2 * t.val + b.val = win0_4.index t (0 : Fin 3) * 2 + 1 * b.val; rw [e0]; omega
  | ⟨1, _⟩ => show q.val = win0_4.index t (1 : Fin 3) * 1000 + 1 * q.val; rw [e1]; omega
  | ⟨2, _⟩ => show s.val = win0_4.index t (2 : Fin 3) * 128 + 1 * s.val; rw [e2]; omega

/-! ## From the blocks to the array -/

/-- An index of the result array is in point t's block iff each coordinate is in the block's range on its axis. -/
theorem mem_blk (t : Fin cfg0.N) (i : S16x1000x128.Idx) :
    i ∈ ((cfg0.win 4).blk t).view.set ↔ ∀ a : Fin 3, win0_4.index t a * S2x1000x128.size a ≤ (i a).val
      ∧ (i a).val < win0_4.index t a * S2x1000x128.size a + S2x1000x128.size a := by
  show i ∈ ((View.whole main_v4).slice (win0_4.rect t)).set ↔ _
  rw [View.set_slice_whole, Rect.mem_set_unit]
  exact Iff.rfl

/-- Every index of the result array is in some point's block: image B is in the block of point B / 2. -/
theorem cover (i : S16x1000x128.Idx) :
    ∃ t : Fin cfg0.N, (cfg0.win 4).flush t = true ∧ i ∈ ((cfg0.win 4).blk t).view.set := by
  have hN : cfg0.N = 8 := N_0
  have h0 : (i 0).val < 16 := (i 0).isLt
  have h1 : (i 1).val < 1000 := (i 1).isLt
  have h2 : (i 2).val < 128 := (i 2).isLt
  obtain ⟨t, ht⟩ : ∃ t : Fin cfg0.N, t.val = (i 0).val / 2 := ⟨⟨(i 0).val / 2, by omega⟩, rfl⟩
  obtain ⟨-, -, -, -, e0, e1, e2⟩ := idx_facts t
  refine ⟨t, flush0_4 t, ?_⟩
  rw [mem_blk]
  intro a
  match a with
  | ⟨0, _⟩ =>
    show win0_4.index t (0 : Fin 3) * 2 ≤ (i 0).val ∧ (i 0).val < win0_4.index t (0 : Fin 3) * 2 + 2
    rw [e0, ht]; omega
  | ⟨1, _⟩ =>
    show win0_4.index t (1 : Fin 3) * 1000 ≤ (i 1).val ∧ (i 1).val < win0_4.index t (1 : Fin 3) * 1000 + 1000
    rw [e1]; omega
  | ⟨2, _⟩ =>
    show win0_4.index t (2 : Fin 3) * 128 ≤ (i 2).val ∧ (i 2).val < win0_4.index t (2 : Fin 3) * 128 + 128
    rw [e2]; omega

/-- THE RESULT ARRAY after the run is the cost array of the argument arrays. -/
theorem final (c : Dev nD) : (dats m 0 c).arrAt 4 cfg0.N
    = (Cert.Cost.G (m ((c : Thread nD τ).loc main_arg0)) (m ((c : Thread nD τ).loc main_arg1))
        (m ((c : Thread nD τ).loc main_arg2)) (m ((c : Thread nD τ).loc main_arg3))) :=
  (dats m 0 c).arrAt_eq_of_cover 4
    (Cert.Cost.G (m ((c : Thread nD τ).loc main_arg0)) (m ((c : Thread nD τ).loc main_arg1))
        (m ((c : Thread nD τ).loc main_arg2)) (m ((c : Thread nD τ).loc main_arg3)))
    (fun t _ => flushed_eq m c t) cover

/-- Every weakly fair execution of the idealized kernel's program terminates with the result array at the cost array
    of the argument arrays, and the arguments unchanged. -/
theorem run : θ_run (defs (F := Ideal)) (onTc (τ := τ) (main (F := Ideal))) ⟨m, fun _ => 0, ρ⟩ fun r => ∀ c : Dev nD,
      r.2.mem ((c : Thread nD τ).loc main_v4)
        = Cert.Cost.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.CostValue

end
-- ==== Proof.LibGatherCols.lean ====
/-
  One host indexing operation read at an index, for any extents: the gather of whole columns of a
  [B × N] array named by an [E × 1] column of column numbers (the array indexing x[:, idx]): entry (p, e) of the
  gathered [B × E] array is the operand's entry in row p and in the column e's number names, that
  number read as a signed integer and clamped into the operand's column range.
-/
import Idealize.ShloMosaic.PureOps.Ideal
import Idealize.ShloMosaic.PureOps.Contract
import Idealize.ShloMosaic.Lib.ValueIdx

noncomputable section

namespace Idealize.ShloMosaic.ColOps

open Idealize.ShloMosaic Idealize.ShloMosaic.ValueIdx

/-- Column e of the gathered array is the operand's column at e's column number, read signed and clamped into the
    operand: on operand axis 0 the slice is the whole axis, so the row coordinate passes through; operand axis 1 is
    collapsed (slice size 1) and is the one axis the start index names. -/
theorem gather_cols_apply {α : Type} {B N E w : Nat} (d : GatherDims ⟨2, ![B, N]⟩ ⟨2, ![E, 1]⟩ ⟨2, ![B, E]⟩)
    (hoff : d.offsetDims = [0]) (hcoll : d.collapsedSliceDims = [1]) (hob : d.operandBatchingDims = [])
    (hsim : d.startIndexMap = [1]) (hivd : d.indexVectorDim = 1)
    (x : (⟨2, ![B, N]⟩ : Shape).Idx → α) (idx : IVec ⟨2, ![E, 1]⟩ w) (p : Fin B) (e : Fin E) (hN : 0 < N) :
    Host.gather d x idx (ix2 p e) = x (ix2 p (⟨min (idx (ix2 e (0 : Fin 1))).toInt.toNat (N - 1), by omega⟩ : Fin N)) := by
  unfold Host.gather
  congr 1
  funext a
  -- the result's one batch axis is axis 1 (axis 0 is its offset axis); no operand axis is a batching axis
  have hbd : d.batchDims = [1] := by
    show (⟨2, ![B, E]⟩ : Shape).kept d.offsetDims = [1]
    rw [hoff]; rfl
  have hob0 : ∀ a : Fin 2, a ∉ d.operandBatchingDims := fun a => by rw [hob]; exact List.not_mem_nil
  -- every entry of a one-element list of axes is that axis, whatever position it is read at
  have hall1 : ∀ X ∈ d.batchDims, X = 1 := fun X hX => by rw [hbd] at hX; exact List.mem_singleton.1 hX
  have hall0 : ∀ X ∈ d.offsetDims, X = 0 := fun X hX => by rw [hoff] at hX; exact List.mem_singleton.1 hX
  have coord0 : ∀ X : Fin 2, X = 0 → ((ix2 p e) X).val = p.val := fun X h => by subst h; rfl
  have coord1 : ∀ X : Fin 2, X = 1 → ((ix2 p e) X).val = e.val := fun X h => by subst h; rfl
  match a with
  | ⟨0, _⟩ =>
    -- operand axis 0: not start-indexed (start 0), kept whole: the offset coordinate is the result's coordinate on axis 0
    apply Fin.ext
    have hk : (0 : Fin 2) ∈ d.sKept := by rw [GatherDims.mem_sKept, hcoll]; exact ⟨by simp, hob0 0⟩
    have hm : (0 : Fin 2) ∉ d.startIndexMap := by rw [hsim]; simp
    show d.start (ix2 p e) idx 0 + d.batchCoord (ix2 p e) 0 + d.offCoord (ix2 p e) 0 = p.val
    rw [GatherDims.batchCoord_eq_zero _ _ _ (hob0 0)]
    unfold GatherDims.start GatherDims.offCoord
    rw [dif_neg hm, dif_pos hk]
    simp only [Nat.add_zero, Nat.zero_add]
    exact coord0 _ (hall0 _ (List.getElem_mem _))
  | ⟨1, _⟩ =>
    -- operand axis 1: collapsed (slice size 1, no offset coordinate) and start-indexed: the clamped column number
    apply Fin.ext
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    show d.start (ix2 p e) idx 1 + d.batchCoord (ix2 p e) 1 + d.offCoord (ix2 p e) 1 = min (idx (ix2 e 0)).toInt.toNat (N - 1)
    rw [GatherDims.batchCoord_eq_zero _ _ _ (hob0 1), GatherDims.offCoord_eq_zero _ _ _ hk]
    simp only [Nat.add_zero]
    unfold GatherDims.start
    rw [dif_pos hm]
    show min (idx _).toInt.toNat (N - d.sliceSizes 1) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord1 _ (hall1 _ (List.getElem_mem _))
    | ⟨1, _⟩ =>
      unfold GatherDims.siIdx
      rw [dif_pos (by rw [hivd])]
      apply Fin.ext
      show List.idxOf (1 : Fin 2) d.startIndexMap = 0
      rw [hsim]; simp

end Idealize.ShloMosaic.ColOps

end
-- ==== Proof.RefClass.lean ====
/- The reference's class cost of one (row, column) pair of the all-pairs matrix. -/
import proofs.«413233_j54786602827871_3_alg».proof.Proof.Gen.ReferenceIdeal.Read
import proofs.«413233_j54786602827871_3_alg».proof.Proof.Spec
import proofs.«413233_j54786602827871_3_alg».proof.Proof.LibGatherCols

noncomputable section

namespace Cert.ReferenceIdeal.CostRead

open Cert.ReferenceIdeal Cert.ReferenceIdeal.Read Cert.Cost Idealize.ShloMosaic Idealize.ShloMosaic.ValueIdx

/-! ## The sigmoid table -/

/-- Entry (r, c) of the logits flattened to [16000, 91] is the argument array's entry of image r div 1000, query
    r mod 1000, class c (the flat position is 91 r + c). -/
theorem logits_idx (r : Fin 16000) (c : Fin 91) : idx_main_v0 (ix2 r c) = ix3 (rowImg r) (rowQry r) c := by
  funext a
  apply Fin.ext
  have hr : r.val < 16000 := r.isLt
  have hc : c.val < 91 := c.isLt
  match a with
  | ⟨0, _⟩ => show (r.val * 91 + c.val) / 91000 = r.val / 1000; omega
  | ⟨1, _⟩ => show (r.val * 91 + c.val) / 91 % 1000 = r.val % 1000; omega
  | ⟨2, _⟩ => show (r.val * 91 + c.val) % 91 = c.val; omega

/-- Entry (r, c) of the sigmoid table: 1 / (1 + exp (−x)) at the logit x of row r in class c, which is the logistic
    function by its definition; the literal 1.0 is the extended real 1. -/
theorem sigmoid_apply (x0 : (⟨S16x1000x91, .f32⟩ : BufTy).Contents (Elt Ideal)) (r : Fin 16000) (c : Fin 91) :
    val_main_v6 (F := Ideal) x0 (ix2 r c) = Ideal.logistic (x0 (ix3 (rowImg r) (rowQry r) c)) := by
  rw [val_main_v6_apply, val_main_v5_apply, val_main_cst_0_apply, val_main_v4_apply, val_main_v3_apply,
    val_main_cst_apply, val_main_v2_apply, val_main_v1_apply, val_main_v0_apply, logits_idx]
  show Ideal.div (Ideal.ofBits .f32 0x3F800000#32)
      (Ideal.ofBits .f32 0x3F800000#32 + Ideal.exp (-(x0 (ix3 (rowImg r) (rowQry r) c)))) = _
  rw [Cert.Consts.ofBits_one, EReal.coe_one]
  rfl

/-! ## The column of class numbers -/

/-- Entry s of the column of class numbers: column s's label (image s div 128, target s mod 128), with 91 added when
    it is negative. -/
theorem label_apply (x2 : (⟨S16x128, .i32⟩ : BufTy).Contents (Elt Ideal)) (s : Fin 2048) :
    val_main_v15 (F := Ideal) x2 (ix2 s (0 : Fin 1)) = wrap (x2 (ix2 (colImg s) (colTgt s))) := by
  have e : idx_main_v8 (idx_main_v15 (ix2 s (0 : Fin 1))) = ix2 (colImg s) (colTgt s) := by
    funext a
    apply Fin.ext
    match a with
    | ⟨0, _⟩ => rfl
    | ⟨1, _⟩ => rfl
  rw [val_main_v15_apply, val_main_v14_apply, val_main_v11_apply, val_main_v13_apply, val_main_v10_apply,
    val_main_v12_apply, val_main_c_apply, val_main_c_1_apply, val_main_v8_apply, e]
  rfl

/-! ## The gathered probabilities -/

/-- Entry (r, s) of the gathered array: the sigmoid of row r's logit in the class column s's label selects. The
    gather takes whole columns of the sigmoid table, the column number read signed and clamped into [0, 90]. -/
theorem prob_apply (x0 : (⟨S16x1000x91, .f32⟩ : BufTy).Contents (Elt Ideal)) (x2 : (⟨S16x128, .i32⟩ : BufTy).Contents (Elt Ideal))
    (r : Fin 16000) (s : Fin 2048) :
    val_main_v16 (F := Ideal) x0 x2 (ix2 r s)
      = Ideal.logistic (x0 (ix3 (rowImg r) (rowQry r) (cls (wrap (x2 (ix2 (colImg s) (colTgt s))))))) := by
  unfold val_main_v16
  refine (ColOps.gather_cols_apply (B := 16000) (N := 91) (E := 2048)
    gather_S16000x91_S2048x1_S16000x2048_0_1_n_n_1_1_160001 rfl rfl rfl rfl rfl
    (val_main_v6 (F := Ideal) x0) (val_main_v15 (F := Ideal) x2) r s (by decide)).trans ?_
  -- the clamped column number is the class the wrapped label selects
  have hc : (⟨min ((val_main_v15 (F := Ideal) x2) (ix2 s (0 : Fin 1))).toInt.toNat (91 - 1), by omega⟩ : Fin 91)
      = cls (wrap (x2 (ix2 (colImg s) (colTgt s)))) :=
    Fin.ext (congrArg (fun l : BitVec 32 => min l.toInt.toNat 90) (label_apply x2 s))
  exact (congrArg (fun c => val_main_v6 (F := Ideal) x0 (ix2 r c)) hc).trans
    (sigmoid_apply x0 r (cls (wrap (x2 (ix2 (colImg s) (colTgt s))))))

/-! ## The focal cost of a probability -/

/-- Every entry of the class cost is the reference's focal cost of the gathered probability at that entry: the
    difference of the two weighted products, weights 1/4 and 3/4, squares as powers with exponent 2, each logarithm
    taken after adding the epsilon and then negated. -/
theorem focal_read (x0 : (⟨S16x1000x91, .f32⟩ : BufTy).Contents (Elt Ideal)) (x2 : (⟨S16x128, .i32⟩ : BufTy).Contents (Elt Ideal))
    (i : S16000x2048.Idx) :
    val_main_v39 (F := Ideal) x0 x2 i = focalRef (val_main_v16 (F := Ideal) x0 x2 i) := by
  simp only [val_main_v39_apply, val_main_v38_apply, val_main_v37_apply, val_main_v36_apply, val_main_v35_apply,
    val_main_v34_apply, val_main_cst_9_apply, val_main_v33_apply, val_main_v32_apply, val_main_cst_8_apply,
    val_main_v31_apply, val_main_v30_apply, val_main_cst_7_apply, val_main_v29_apply, val_main_v28_apply,
    val_main_cst_6_apply, val_main_v27_apply, val_main_v26_apply, val_main_v25_apply, val_main_v24_apply,
    val_main_v23_apply, val_main_cst_5_apply, val_main_v22_apply, val_main_v21_apply, val_main_cst_4_apply,
    val_main_v20_apply, val_main_v19_apply, val_main_cst_3_apply, val_main_v18_apply, val_main_v17_apply,
    val_main_cst_2_apply]
  rfl

/-- Entry (r, s) of the reference's class cost (before its outer factor 2): the focal cost of the sigmoid of row r's
    logit in the class column s's label selects, a negative label wrapped first. -/
theorem class_apply (x0 : (⟨S16x1000x91, .f32⟩ : BufTy).Contents (Elt Ideal)) (x2 : (⟨S16x128, .i32⟩ : BufTy).Contents (Elt Ideal))
    (r : Fin 16000) (s : Fin 2048) :
    val_main_v39 (F := Ideal) x0 x2 (ix2 r s)
      = focalRef (Ideal.logistic (x0 (ix3 (rowImg r) (rowQry r) (cls (wrap (x2 (ix2 (colImg s) (colTgt s)))))))) := by
  rw [focal_read, prob_apply]

end Cert.ReferenceIdeal.CostRead

end
-- ==== Proof.RefL1.lean ====
/- The reference's L1 box cost of one (row, column) pair of the all-pairs matrix. -/
import proofs.«413233_j54786602827871_3_alg».proof.Proof.Gen.ReferenceIdeal.Read
import proofs.«413233_j54786602827871_3_alg».proof.Proof.Spec

noncomputable section

namespace Cert.ReferenceIdeal.CostRead

open Cert.ReferenceIdeal Cert.ReferenceIdeal.Read Cert.Cost Idealize.ShloMosaic Idealize.ShloMosaic.ValueIdx

/-- Coordinate k of row r's box: the query boxes flattened to [16000, 4], given a unit middle axis and repeated along
    the columns, are read at (r, s, k) where the argument array has image r div 1000, query r mod 1000, coordinate k
    (the flat position is 4 r + k, and 4 r + k = (1000 (r div 1000) + r mod 1000) 4 + k). -/
theorem query_box_idx (r : Fin 16000) (s : Fin 2048) (k : Fin 4) :
    idx_main_v7 (idx_main_v40 (idx_main_v42 (idx_main_v46 (ix2 r s) k))) = ix3 (rowImg r) (rowQry r) k := by
  funext a
  apply Fin.ext
  have hr : r.val < 16000 := r.isLt
  have hk : k.val < 4 := k.isLt
  match a with
  | ⟨0, _⟩ => show (r.val * 4 + k.val) / 4000 = r.val / 1000; omega
  | ⟨1, _⟩ => show (r.val * 4 + k.val) / 4 % 1000 = r.val % 1000; omega
  | ⟨2, _⟩ => show (r.val * 4 + k.val) % 4 = k.val; omega

/-- Coordinate k of column s's box: the target boxes flattened to [2048, 4], given a unit leading axis and repeated
    along the rows, are read at (r, s, k) where the argument array has image s div 128, target s mod 128, coordinate k. -/
theorem target_box_idx (r : Fin 16000) (s : Fin 2048) (k : Fin 4) :
    idx_main_v9 (idx_main_v41 (idx_main_v43 (idx_main_v46 (ix2 r s) k))) = ix3 (colImg s) (colTgt s) k := by
  funext a
  apply Fin.ext
  have hs : s.val < 2048 := s.isLt
  have hk : k.val < 4 := k.isLt
  match a with
  | ⟨0, _⟩ => show (s.val * 4 + k.val) / 512 = s.val / 128; omega
  | ⟨1, _⟩ => show (s.val * 4 + k.val) / 4 % 128 = s.val % 128; omega
  | ⟨2, _⟩ => show (s.val * 4 + k.val) % 4 = k.val; omega

/-- One summand of the reduction: the absolute difference of coordinate k of the two boxes (the absolute value of an
    extended real x is max x (−x)). -/
theorem abs_diff_apply (x1 : (⟨S16x1000x4, .f32⟩ : BufTy).Contents (Elt Ideal)) (x3 : (⟨S16x128x4, .f32⟩ : BufTy).Contents (Elt Ideal))
    (r : Fin 16000) (s : Fin 2048) (k : Fin 4) :
    val_main_v45 (F := Ideal) x1 x3 (idx_main_v46 (ix2 r s) k)
      = eabs (x1 (ix3 (rowImg r) (rowQry r) k) - x3 (ix3 (colImg s) (colTgt s) k)) := by
  rw [val_main_v45_apply, val_main_v44_apply, val_main_v42_apply, val_main_v40_apply, val_main_v7_apply,
    val_main_v43_apply, val_main_v41_apply, val_main_v9_apply, query_box_idx, target_box_idx]
  rfl

/-- Entry (r, s) of the reference's L1 cost: the L1 distance of row r's box and column s's box. -/
theorem l1_apply (x1 : (⟨S16x1000x4, .f32⟩ : BufTy).Contents (Elt Ideal)) (x3 : (⟨S16x128x4, .f32⟩ : BufTy).Contents (Elt Ideal))
    (r : Fin 16000) (s : Fin 2048) :
    val_main_v46 (F := Ideal) x1 x3 (ix2 r s)
      = l1 (fun k => x1 (ix3 (rowImg r) (rowQry r) k)) (fun k => x3 (ix3 (colImg s) (colTgt s) k)) := by
  -- the sum over the four coordinates, started from the literal 0.0, which is the extended real 0
  rw [val_main_v46_apply, val_main_cst_10_apply, Finset.sum_congr rfl (fun k _ => abs_diff_apply x1 x3 r s k),
    Fin.sum_univ_four]
  show Ideal.ofBits .f32 0x00000000#32 + _ = _
  rw [Cert.Consts.ofBits_zero, zero_add]
  rfl

end Cert.ReferenceIdeal.CostRead

end
-- ==== Proof.RefGiou.lean ====
/- The reference's generalized intersection over union of one (row, column) pair of the all-pairs matrix.

   The reference flattens the query boxes to 16000 rows and the target boxes to 2048 columns, turns each
   box (cx, cy, w, h) into its corners by slicing the four columns and joining cx − w/2, cy − h/2, cx + w/2,
   cy + h/2 along the column axis, and then computes, for every (row, column) pair, the two areas, the
   clipped sides of the intersection and of the enclosing box, the union, and
   intersection/union − (enclosing − union)/enclosing. Each stage is read here at one index, from the
   leaves upwards: the boxes through the flattening reshapes, the four corner columns of either side, the
   areas, the clipped sides, and last the quotients. -/
import proofs.«413233_j54786602827871_3_alg».proof.Proof.Gen.ReferenceIdeal.Read
import proofs.«413233_j54786602827871_3_alg».proof.Proof.Spec

noncomputable section

namespace Cert.ReferenceIdeal.CostRead

open Cert.ReferenceIdeal Cert.ReferenceIdeal.Read Cert.Cost Idealize.ShloMosaic Idealize.ShloMosaic.ValueIdx

/-! ## Four one-column pieces joined along the column axis -/

/-- Column 0 of four one-column pieces joined along the column axis is piece 0. -/
theorem concat4_col0 {α : Type} {n : Nat}
    (h : Shape.Concatenates [(⟨2, ![n, 1]⟩ : Shape), ⟨2, ![n, 1]⟩, ⟨2, ![n, 1]⟩, ⟨2, ![n, 1]⟩] ⟨2, ![n, 4]⟩ 1)
    (p0 p1 p2 p3 : (⟨2, ![n, 1]⟩ : Shape).Idx → α) (j : (⟨2, ![n, 4]⟩ : Shape).Idx) (r : Fin n)
    (h0 : (j 0).val = r.val) (h1 : (j 1).val = 0) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h j
      = p0 (ix2 r (0 : Fin 1)) := by
  refine concatenate_apply_piece (t := ⟨2, ![n, 4]⟩) (1 : Fin 2)
    [⟨⟨2, ![n, 1]⟩, p0⟩, ⟨⟨2, ![n, 1]⟩, p1⟩, ⟨⟨2, ![n, 1]⟩, p2⟩, ⟨⟨2, ![n, 1]⟩, p3⟩] _ j 0
    (by show (0 : Nat) < 4; decide) ⟨2, ![n, 1]⟩ p0 rfl rfl 0 rfl (ix2 r (0 : Fin 1)) ?_ ?_
  · intro b hb
    match b with
    | ⟨0, _⟩ => exact h0.symm
    | ⟨1, _⟩ => exact absurd rfl hb
  · show 0 + 0 = (j 1).val
    omega

/-- Column 1 of four one-column pieces joined along the column axis is piece 1. -/
theorem concat4_col1 {α : Type} {n : Nat}
    (h : Shape.Concatenates [(⟨2, ![n, 1]⟩ : Shape), ⟨2, ![n, 1]⟩, ⟨2, ![n, 1]⟩, ⟨2, ![n, 1]⟩] ⟨2, ![n, 4]⟩ 1)
    (p0 p1 p2 p3 : (⟨2, ![n, 1]⟩ : Shape).Idx → α) (j : (⟨2, ![n, 4]⟩ : Shape).Idx) (r : Fin n)
    (h0 : (j 0).val = r.val) (h1 : (j 1).val = 1) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h j
      = p1 (ix2 r (0 : Fin 1)) := by
  refine concatenate_apply_piece (t := ⟨2, ![n, 4]⟩) (1 : Fin 2)
    [⟨⟨2, ![n, 1]⟩, p0⟩, ⟨⟨2, ![n, 1]⟩, p1⟩, ⟨⟨2, ![n, 1]⟩, p2⟩, ⟨⟨2, ![n, 1]⟩, p3⟩] _ j 1
    (by show (1 : Nat) < 4; decide) ⟨2, ![n, 1]⟩ p1 rfl rfl 1 rfl (ix2 r (0 : Fin 1)) ?_ ?_
  · intro b hb
    match b with
    | ⟨0, _⟩ => exact h0.symm
    | ⟨1, _⟩ => exact absurd rfl hb
  · show 1 + 0 = (j 1).val
    omega

/-- Column 2 of four one-column pieces joined along the column axis is piece 2. -/
theorem concat4_col2 {α : Type} {n : Nat}
    (h : Shape.Concatenates [(⟨2, ![n, 1]⟩ : Shape), ⟨2, ![n, 1]⟩, ⟨2, ![n, 1]⟩, ⟨2, ![n, 1]⟩] ⟨2, ![n, 4]⟩ 1)
    (p0 p1 p2 p3 : (⟨2, ![n, 1]⟩ : Shape).Idx → α) (j : (⟨2, ![n, 4]⟩ : Shape).Idx) (r : Fin n)
    (h0 : (j 0).val = r.val) (h1 : (j 1).val = 2) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h j
      = p2 (ix2 r (0 : Fin 1)) := by
  refine concatenate_apply_piece (t := ⟨2, ![n, 4]⟩) (1 : Fin 2)
    [⟨⟨2, ![n, 1]⟩, p0⟩, ⟨⟨2, ![n, 1]⟩, p1⟩, ⟨⟨2, ![n, 1]⟩, p2⟩, ⟨⟨2, ![n, 1]⟩, p3⟩] _ j 2
    (by show (2 : Nat) < 4; decide) ⟨2, ![n, 1]⟩ p2 rfl rfl 2 rfl (ix2 r (0 : Fin 1)) ?_ ?_
  · intro b hb
    match b with
    | ⟨0, _⟩ => exact h0.symm
    | ⟨1, _⟩ => exact absurd rfl hb
  · show 2 + 0 = (j 1).val
    omega

/-- Column 3 of four one-column pieces joined along the column axis is piece 3. -/
theorem concat4_col3 {α : Type} {n : Nat}
    (h : Shape.Concatenates [(⟨2, ![n, 1]⟩ : Shape), ⟨2, ![n, 1]⟩, ⟨2, ![n, 1]⟩, ⟨2, ![n, 1]⟩] ⟨2, ![n, 4]⟩ 1)
    (p0 p1 p2 p3 : (⟨2, ![n, 1]⟩ : Shape).Idx → α) (j : (⟨2, ![n, 4]⟩ : Shape).Idx) (r : Fin n)
    (h0 : (j 0).val = r.val) (h1 : (j 1).val = 3) :
    concatenate ⟨2, ![n, 4]⟩ 1 [⟨⟨2, ![n, 1]⟩, p0⟩, ⟨⟨2, ![n, 1]⟩, p1⟩, ⟨⟨2, ![n, 1]⟩, p2⟩, ⟨⟨2, ![n, 1]⟩, p3⟩] h j
      = p3 (ix2 r (0 : Fin 1)) := by
  refine concatenate_apply_piece (t := ⟨2, ![n, 4]⟩) (1 : Fin 2)
    [⟨⟨2, ![n, 1]⟩, p0⟩, ⟨⟨2, ![n, 1]⟩, p1⟩, ⟨⟨2, ![n, 1]⟩, p2⟩, ⟨⟨2, ![n, 1]⟩, p3⟩] _ j 3
    (by show (3 : Nat) < 4; decide) ⟨2, ![n, 1]⟩ p3 rfl rfl 3 rfl (ix2 r (0 : Fin 1)) ?_ ?_
  · intro b hb
    match b with
    | ⟨0, _⟩ => exact h0.symm
    | ⟨1, _⟩ => exact absurd rfl hb
  · show 3 + 0 = (j 1).val
    omega

/-! ## One box, its corner form and its area -/

/-- The box of row `r` of the all-pairs matrix: query `r mod 1000` of image `r div 1000`. -/
abbrev qb (x1 : (⟨S16x1000x4, .f32⟩ : BufTy).Contents (Elt Ideal)) (r : Fin 16000) : Fin 4 → EReal :=
  fun k => x1 (ix3 (rowImg r) (rowQry r) k)
/-- The box of column `s` of the all-pairs matrix: target `s mod 128` of image `s div 128`. -/
abbrev tb (x3 : (⟨S16x128x4, .f32⟩ : BufTy).Contents (Elt Ideal)) (s : Fin 2048) : Fin 4 → EReal :=
  fun k => x3 (ix3 (colImg s) (colTgt s) k)

/-- The left edge cx − w/2 of a box (cx, cy, w, h). -/
abbrev xLo (b : Fin 4 → EReal) : EReal := b 0 - cHalf * b 2
/-- The top edge cy − h/2. -/
abbrev yLo (b : Fin 4 → EReal) : EReal := b 1 - cHalf * b 3
/-- The right edge cx + w/2. -/
abbrev xHi (b : Fin 4 → EReal) : EReal := b 0 + cHalf * b 2
/-- The bottom edge cy + h/2. -/
abbrev yHi (b : Fin 4 → EReal) : EReal := b 1 + cHalf * b 3
/-- The area of a box from its corner form. -/
abbrev area (b : Fin 4 → EReal) : EReal := (xHi b - xLo b) * (yHi b - yLo b)
/-- The intersection of two boxes: the product of its two sides, each clipped at zero. -/
abbrev interOf (q t : Fin 4 → EReal) : EReal :=
  max (min (xHi q) (xHi t) - max (xLo q) (xLo t)) c0 * max (min (yHi q) (yHi t) - max (yLo q) (yLo t)) c0
/-- The union of two boxes: the two areas less the intersection. -/
abbrev unionOf (q t : Fin 4 → EReal) : EReal := (area q + area t) - interOf q t
/-- The smallest box enclosing both: the product of its two sides, each clipped at zero. -/
abbrev hullOf (q t : Fin 4 → EReal) : EReal :=
  max (max (xHi q) (xHi t) - min (xLo q) (xLo t)) c0 * max (max (yHi q) (yHi t) - min (yLo q) (yLo t)) c0

/-- The specification's GIoU in these names. -/
theorem giou_eq (q t : Fin 4 → EReal) :
    giou q t = Ideal.div (interOf q t) (unionOf q t) - Ideal.div (hullOf q t - unionOf q t) (hullOf q t) := rfl

/-! ## The argument arrays read through the flattening reshapes -/

/-- Row `r`, column `k` of the flattened query boxes is coordinate `k` of the box of row `r`:
    the flat position `4 r + k` splits as image `r div 1000`, query `r mod 1000`, coordinate `k`. -/
theorem boxes_row (x1 : (⟨S16x1000x4, .f32⟩ : BufTy).Contents (Elt Ideal)) (j : S16000x4.Idx) (r : Fin 16000) (k : Fin 4)
    (h0 : (j 0).val = r.val) (h1 : (j 1).val = k.val) :
    val_main_v7 (F := Ideal) x1 j = qb x1 r k := by
  rw [val_main_v7_apply]
  refine congrArg x1 (funext fun a => Fin.ext ?_)
  have hk := k.isLt
  have hr := r.isLt
  match a with
  | ⟨0, _⟩ => show ((j 0).val * 4 + (j 1).val) / 4000 = r.val / 1000; omega
  | ⟨1, _⟩ => show ((j 0).val * 4 + (j 1).val) / 4 % 1000 = r.val % 1000; omega
  | ⟨2, _⟩ => show ((j 0).val * 4 + (j 1).val) % 4 = k.val; omega

/-- Column `s`, coordinate `k` of the flattened target boxes is coordinate `k` of the box of column `s`:
    the flat position `4 s + k` splits as image `s div 128`, target `s mod 128`, coordinate `k`. -/
theorem boxes_col (x3 : (⟨S16x128x4, .f32⟩ : BufTy).Contents (Elt Ideal)) (j : S2048x4.Idx) (s : Fin 2048) (k : Fin 4)
    (h0 : (j 0).val = s.val) (h1 : (j 1).val = k.val) :
    val_main_v9 (F := Ideal) x3 j = tb x3 s k := by
  rw [val_main_v9_apply]
  refine congrArg x3 (funext fun a => Fin.ext ?_)
  have hk := k.isLt
  have hs := s.isLt
  match a with
  | ⟨0, _⟩ => show ((j 0).val * 4 + (j 1).val) / 512 = s.val / 128; omega
  | ⟨1, _⟩ => show ((j 0).val * 4 + (j 1).val) / 4 % 128 = s.val % 128; omega
  | ⟨2, _⟩ => show ((j 0).val * 4 + (j 1).val) % 4 = k.val; omega

/-! ## The corner form of the query boxes: the four pieces, then the four columns of their join -/

/-- The first piece: cx − 0.5 · w of the row's box. -/
theorem q_xLo (x1 : (⟨S16x1000x4, .f32⟩ : BufTy).Contents (Elt Ideal)) (r : Fin 16000) :
    val_main_v53 (F := Ideal) x1 (ix2 r (0 : Fin 1)) = xLo (qb x1 r) := by
  rewrite [val_main_v53_apply, val_main_v52_apply, val_main_v51_apply, val_main_cst_11_apply, val_main_v47_apply,
    val_main_v49_apply, boxes_row x1 (idx_main_v47 (ix2 r (0 : Fin 1))) r 0 rfl rfl,
    boxes_row x1 (idx_main_v49 (ix2 r (0 : Fin 1))) r 2 rfl rfl]
  rfl

/-- The second piece: cy − 0.5 · h. -/
theorem q_yLo (x1 : (⟨S16x1000x4, .f32⟩ : BufTy).Contents (Elt Ideal)) (r : Fin 16000) :
    val_main_v56 (F := Ideal) x1 (ix2 r (0 : Fin 1)) = yLo (qb x1 r) := by
  rewrite [val_main_v56_apply, val_main_v55_apply, val_main_v54_apply, val_main_cst_12_apply, val_main_v48_apply,
    val_main_v50_apply, boxes_row x1 (idx_main_v48 (ix2 r (0 : Fin 1))) r 1 rfl rfl,
    boxes_row x1 (idx_main_v50 (ix2 r (0 : Fin 1))) r 3 rfl rfl]
  rfl

/-- The third piece: cx + 0.5 · w. -/
theorem q_xHi (x1 : (⟨S16x1000x4, .f32⟩ : BufTy).Contents (Elt Ideal)) (r : Fin 16000) :
    val_main_v59 (F := Ideal) x1 (ix2 r (0 : Fin 1)) = xHi (qb x1 r) := by
  rewrite [val_main_v59_apply, val_main_v58_apply, val_main_v57_apply, val_main_cst_13_apply, val_main_v47_apply,
    val_main_v49_apply, boxes_row x1 (idx_main_v47 (ix2 r (0 : Fin 1))) r 0 rfl rfl,
    boxes_row x1 (idx_main_v49 (ix2 r (0 : Fin 1))) r 2 rfl rfl]
  rfl

/-- The fourth piece: cy + 0.5 · h. -/
theorem q_yHi (x1 : (⟨S16x1000x4, .f32⟩ : BufTy).Contents (Elt Ideal)) (r : Fin 16000) :
    val_main_v62 (F := Ideal) x1 (ix2 r (0 : Fin 1)) = yHi (qb x1 r) := by
  rewrite [val_main_v62_apply, val_main_v61_apply, val_main_v60_apply, val_main_cst_14_apply, val_main_v48_apply,
    val_main_v50_apply, boxes_row x1 (idx_main_v48 (ix2 r (0 : Fin 1))) r 1 rfl rfl,
    boxes_row x1 (idx_main_v50 (ix2 r (0 : Fin 1))) r 3 rfl rfl]
  rfl

/-- Column 0 of the query corners is the left edge of the row's box. -/
theorem q_col0 (x1 : (⟨S16x1000x4, .f32⟩ : BufTy).Contents (Elt Ideal)) (j : S16000x4.Idx) (r : Fin 16000) (h0 : (j 0).val = r.val) (h1 : (j 1).val = 0) :
    val_main_v63 (F := Ideal) x1 j = xLo (qb x1 r) :=
  (concat4_col0 _ (val_main_v53 (F := Ideal) x1) (val_main_v56 (F := Ideal) x1) (val_main_v59 (F := Ideal) x1)
    (val_main_v62 (F := Ideal) x1) j r h0 h1).trans (q_xLo x1 r)

/-- Column 1 is the top edge. -/
theorem q_col1 (x1 : (⟨S16x1000x4, .f32⟩ : BufTy).Contents (Elt Ideal)) (j : S16000x4.Idx) (r : Fin 16000) (h0 : (j 0).val = r.val) (h1 : (j 1).val = 1) :
    val_main_v63 (F := Ideal) x1 j = yLo (qb x1 r) :=
  (concat4_col1 _ (val_main_v53 (F := Ideal) x1) (val_main_v56 (F := Ideal) x1) (val_main_v59 (F := Ideal) x1)
    (val_main_v62 (F := Ideal) x1) j r h0 h1).trans (q_yLo x1 r)

/-- Column 2 is the right edge. -/
theorem q_col2 (x1 : (⟨S16x1000x4, .f32⟩ : BufTy).Contents (Elt Ideal)) (j : S16000x4.Idx) (r : Fin 16000) (h0 : (j 0).val = r.val) (h1 : (j 1).val = 2) :
    val_main_v63 (F := Ideal) x1 j = xHi (qb x1 r) :=
  (concat4_col2 _ (val_main_v53 (F := Ideal) x1) (val_main_v56 (F := Ideal) x1) (val_main_v59 (F := Ideal) x1)
    (val_main_v62 (F := Ideal) x1) j r h0 h1).trans (q_xHi x1 r)

/-- Column 3 is the bottom edge. -/
theorem q_col3 (x1 : (⟨S16x1000x4, .f32⟩ : BufTy).Contents (Elt Ideal)) (j : S16000x4.Idx) (r : Fin 16000) (h0 : (j 0).val = r.val) (h1 : (j 1).val = 3) :
    val_main_v63 (F := Ideal) x1 j = yHi (qb x1 r) :=
  (concat4_col3 _ (val_main_v53 (F := Ideal) x1) (val_main_v56 (F := Ideal) x1) (val_main_v59 (F := Ideal) x1)
    (val_main_v62 (F := Ideal) x1) j r h0 h1).trans (q_yHi x1 r)

/-! ## The corner form of the target boxes -/

/-- The first piece: cx − 0.5 · w of the column's box. -/
theorem t_xLo (x3 : (⟨S16x128x4, .f32⟩ : BufTy).Contents (Elt Ideal)) (s : Fin 2048) :
    val_main_v70 (F := Ideal) x3 (ix2 s (0 : Fin 1)) = xLo (tb x3 s) := by
  rewrite [val_main_v70_apply, val_main_v69_apply, val_main_v68_apply, val_main_cst_15_apply, val_main_v64_apply,
    val_main_v66_apply, boxes_col x3 (idx_main_v64 (ix2 s (0 : Fin 1))) s 0 rfl rfl,
    boxes_col x3 (idx_main_v66 (ix2 s (0 : Fin 1))) s 2 rfl rfl]
  rfl

/-- The second piece: cy − 0.5 · h. -/
theorem t_yLo (x3 : (⟨S16x128x4, .f32⟩ : BufTy).Contents (Elt Ideal)) (s : Fin 2048) :
    val_main_v73 (F := Ideal) x3 (ix2 s (0 : Fin 1)) = yLo (tb x3 s) := by
  rewrite [val_main_v73_apply, val_main_v72_apply, val_main_v71_apply, val_main_cst_16_apply, val_main_v65_apply,
    val_main_v67_apply, boxes_col x3 (idx_main_v65 (ix2 s (0 : Fin 1))) s 1 rfl rfl,
    boxes_col x3 (idx_main_v67 (ix2 s (0 : Fin 1))) s 3 rfl rfl]
  rfl

/-- The third piece: cx + 0.5 · w. -/
theorem t_xHi (x3 : (⟨S16x128x4, .f32⟩ : BufTy).Contents (Elt Ideal)) (s : Fin 2048) :
    val_main_v76 (F := Ideal) x3 (ix2 s (0 : Fin 1)) = xHi (tb x3 s) := by
  rewrite [val_main_v76_apply, val_main_v75_apply, val_main_v74_apply, val_main_cst_17_apply, val_main_v64_apply,
    val_main_v66_apply, boxes_col x3 (idx_main_v64 (ix2 s (0 : Fin 1))) s 0 rfl rfl,
    boxes_col x3 (idx_main_v66 (ix2 s (0 : Fin 1))) s 2 rfl rfl]
  rfl

/-- The fourth piece: cy + 0.5 · h. -/
theorem t_yHi (x3 : (⟨S16x128x4, .f32⟩ : BufTy).Contents (Elt Ideal)) (s : Fin 2048) :
    val_main_v79 (F := Ideal) x3 (ix2 s (0 : Fin 1)) = yHi (tb x3 s) := by
  rewrite [val_main_v79_apply, val_main_v78_apply, val_main_v77_apply, val_main_cst_18_apply, val_main_v65_apply,
    val_main_v67_apply, boxes_col x3 (idx_main_v65 (ix2 s (0 : Fin 1))) s 1 rfl rfl,
    boxes_col x3 (idx_main_v67 (ix2 s (0 : Fin 1))) s 3 rfl rfl]
  rfl

/-- Column 0 of the target corners is the left edge of the column's box. -/
theorem t_col0 (x3 : (⟨S16x128x4, .f32⟩ : BufTy).Contents (Elt Ideal)) (j : S2048x4.Idx) (s : Fin 2048) (h0 : (j 0).val = s.val) (h1 : (j 1).val = 0) :
    val_main_v80 (F := Ideal) x3 j = xLo (tb x3 s) :=
  (concat4_col0 _ (val_main_v70 (F := Ideal) x3) (val_main_v73 (F := Ideal) x3) (val_main_v76 (F := Ideal) x3)
    (val_main_v79 (F := Ideal) x3) j s h0 h1).trans (t_xLo x3 s)

/-- Column 1 is the top edge. -/
theorem t_col1 (x3 : (⟨S16x128x4, .f32⟩ : BufTy).Contents (Elt Ideal)) (j : S2048x4.Idx) (s : Fin 2048) (h0 : (j 0).val = s.val) (h1 : (j 1).val = 1) :
    val_main_v80 (F := Ideal) x3 j = yLo (tb x3 s) :=
  (concat4_col1 _ (val_main_v70 (F := Ideal) x3) (val_main_v73 (F := Ideal) x3) (val_main_v76 (F := Ideal) x3)
    (val_main_v79 (F := Ideal) x3) j s h0 h1).trans (t_yLo x3 s)

/-- Column 2 is the right edge. -/
theorem t_col2 (x3 : (⟨S16x128x4, .f32⟩ : BufTy).Contents (Elt Ideal)) (j : S2048x4.Idx) (s : Fin 2048) (h0 : (j 0).val = s.val) (h1 : (j 1).val = 2) :
    val_main_v80 (F := Ideal) x3 j = xHi (tb x3 s) :=
  (concat4_col2 _ (val_main_v70 (F := Ideal) x3) (val_main_v73 (F := Ideal) x3) (val_main_v76 (F := Ideal) x3)
    (val_main_v79 (F := Ideal) x3) j s h0 h1).trans (t_xHi x3 s)

/-- Column 3 is the bottom edge. -/
theorem t_col3 (x3 : (⟨S16x128x4, .f32⟩ : BufTy).Contents (Elt Ideal)) (j : S2048x4.Idx) (s : Fin 2048) (h0 : (j 0).val = s.val) (h1 : (j 1).val = 3) :
    val_main_v80 (F := Ideal) x3 j = yHi (tb x3 s) :=
  (concat4_col3 _ (val_main_v70 (F := Ideal) x3) (val_main_v73 (F := Ideal) x3) (val_main_v76 (F := Ideal) x3)
    (val_main_v79 (F := Ideal) x3) j s h0 h1).trans (t_yHi x3 s)

/-! ## The areas -/

/-- The area of the row's box: (right − left) · (bottom − top), each edge a column of the corner form read through a one-column slice and the reshape that drops its unit axis. -/
theorem q_area (x1 : (⟨S16x1000x4, .f32⟩ : BufTy).Contents (Elt Ideal)) (j : S16000.Idx) (r : Fin 16000) (h0 : (j 0).val = r.val) :
    val_main_v91 (F := Ideal) x1 j = area (qb x1 r) := by
  have e : (j 0).val / 1 = r.val := by omega
  rewrite [val_main_v91_apply, val_main_v85_apply, val_main_v90_apply,
    val_main_v82_apply, val_main_v84_apply, val_main_v87_apply, val_main_v89_apply,
    val_main_v81_apply, val_main_v83_apply, val_main_v86_apply, val_main_v88_apply,
    q_col2 x1 (idx_main_v81 (idx_main_v82 j)) r e rfl,
    q_col0 x1 (idx_main_v83 (idx_main_v84 j)) r e rfl,
    q_col3 x1 (idx_main_v86 (idx_main_v87 j)) r e rfl,
    q_col1 x1 (idx_main_v88 (idx_main_v89 j)) r e rfl]
  rfl

/-- The area of the column's box. -/
theorem t_area (x3 : (⟨S16x128x4, .f32⟩ : BufTy).Contents (Elt Ideal)) (j : S2048.Idx) (s : Fin 2048) (h0 : (j 0).val = s.val) :
    val_main_v102 (F := Ideal) x3 j = area (tb x3 s) := by
  have e : (j 0).val / 1 = s.val := by omega
  rewrite [val_main_v102_apply, val_main_v96_apply, val_main_v101_apply,
    val_main_v93_apply, val_main_v95_apply, val_main_v98_apply, val_main_v100_apply,
    val_main_v92_apply, val_main_v94_apply, val_main_v97_apply, val_main_v99_apply,
    t_col2 x3 (idx_main_v92 (idx_main_v93 j)) s e rfl,
    t_col0 x3 (idx_main_v94 (idx_main_v95 j)) s e rfl,
    t_col3 x3 (idx_main_v97 (idx_main_v98 j)) s e rfl,
    t_col1 x3 (idx_main_v99 (idx_main_v100 j)) s e rfl]
  rfl

/-! ## The clipped sides of the intersection and of the enclosing box

The reference takes the maximum of the broadcast zero and the side; the specification writes the side first.
The maximum is commutative on the extended reals. -/

/-- The intersection's width: the smaller right edge less the larger left edge, clipped at zero. -/
theorem interW (x1 : (⟨S16x1000x4, .f32⟩ : BufTy).Contents (Elt Ideal)) (x3 : (⟨S16x128x4, .f32⟩ : BufTy).Contents (Elt Ideal)) (j : S16000x2048x2.Idx) (r : Fin 16000) (s : Fin 2048)
    (h0 : (j 0).val = r.val) (h1 : (j 1).val = s.val) (h2 : (j 2).val = 0) :
    val_main_v118 (F := Ideal) x1 x3 j
      = max (min (xHi (qb x1 r)) (xHi (tb x3 s)) - max (xLo (qb x1 r)) (xLo (tb x3 s))) c0 := by
  rewrite [val_main_v118_apply, val_main_call0_v1_apply, val_main_call0_v0_apply, val_main_cst_19_apply,
    val_main_v117_apply, val_main_v116_apply, val_main_v109_apply,
    val_main_v114_apply, val_main_v111_apply, val_main_v110_apply, val_main_v115_apply, val_main_v113_apply, val_main_v112_apply,
    val_main_v107_apply, val_main_v104_apply, val_main_v103_apply, val_main_v108_apply, val_main_v106_apply, val_main_v105_apply,
    q_col2 x1 (idx_main_v110 (idx_main_v111 (idx_main_v114 j))) r h0 (by show 2 + (j 2).val = 2; omega),
    t_col2 x3 (idx_main_v112 (idx_main_v113 (idx_main_v115 j))) s h1 (by show 2 + (j 2).val = 2; omega),
    q_col0 x1 (idx_main_v103 (idx_main_v104 (idx_main_v107 j))) r h0 h2,
    t_col0 x3 (idx_main_v105 (idx_main_v106 (idx_main_v108 j))) s h1 h2]
  exact max_comm _ _

/-- The intersection's height: the smaller bottom edge less the larger top edge, clipped at zero. -/
theorem interH (x1 : (⟨S16x1000x4, .f32⟩ : BufTy).Contents (Elt Ideal)) (x3 : (⟨S16x128x4, .f32⟩ : BufTy).Contents (Elt Ideal)) (j : S16000x2048x2.Idx) (r : Fin 16000) (s : Fin 2048)
    (h0 : (j 0).val = r.val) (h1 : (j 1).val = s.val) (h2 : (j 2).val = 1) :
    val_main_v118 (F := Ideal) x1 x3 j
      = max (min (yHi (qb x1 r)) (yHi (tb x3 s)) - max (yLo (qb x1 r)) (yLo (tb x3 s))) c0 := by
  rewrite [val_main_v118_apply, val_main_call0_v1_apply, val_main_call0_v0_apply, val_main_cst_19_apply,
    val_main_v117_apply, val_main_v116_apply, val_main_v109_apply,
    val_main_v114_apply, val_main_v111_apply, val_main_v110_apply, val_main_v115_apply, val_main_v113_apply, val_main_v112_apply,
    val_main_v107_apply, val_main_v104_apply, val_main_v103_apply, val_main_v108_apply, val_main_v106_apply, val_main_v105_apply,
    q_col3 x1 (idx_main_v110 (idx_main_v111 (idx_main_v114 j))) r h0 (by show 2 + (j 2).val = 3; omega),
    t_col3 x3 (idx_main_v112 (idx_main_v113 (idx_main_v115 j))) s h1 (by show 2 + (j 2).val = 3; omega),
    q_col1 x1 (idx_main_v103 (idx_main_v104 (idx_main_v107 j))) r h0 h2,
    t_col1 x3 (idx_main_v105 (idx_main_v106 (idx_main_v108 j))) s h1 h2]
  exact max_comm _ _

/-- The enclosing box's width: the larger right edge less the smaller left edge, clipped at zero. -/
theorem hullW (x1 : (⟨S16x1000x4, .f32⟩ : BufTy).Contents (Elt Ideal)) (x3 : (⟨S16x128x4, .f32⟩ : BufTy).Contents (Elt Ideal)) (j : S16000x2048x2.Idx) (r : Fin 16000) (s : Fin 2048)
    (h0 : (j 0).val = r.val) (h1 : (j 1).val = s.val) (h2 : (j 2).val = 0) :
    val_main_v146 (F := Ideal) x1 x3 j
      = max (max (xHi (qb x1 r)) (xHi (tb x3 s)) - min (xLo (qb x1 r)) (xLo (tb x3 s))) c0 := by
  rewrite [val_main_v146_apply, val_main_call1_v1_apply, val_main_call1_v0_apply, val_main_cst_20_apply,
    val_main_v145_apply, val_main_v144_apply, val_main_v137_apply,
    val_main_v142_apply, val_main_v139_apply, val_main_v138_apply, val_main_v143_apply, val_main_v141_apply, val_main_v140_apply,
    val_main_v135_apply, val_main_v132_apply, val_main_v131_apply, val_main_v136_apply, val_main_v134_apply, val_main_v133_apply,
    q_col2 x1 (idx_main_v138 (idx_main_v139 (idx_main_v142 j))) r h0 (by show 2 + (j 2).val = 2; omega),
    t_col2 x3 (idx_main_v140 (idx_main_v141 (idx_main_v143 j))) s h1 (by show 2 + (j 2).val = 2; omega),
    q_col0 x1 (idx_main_v131 (idx_main_v132 (idx_main_v135 j))) r h0 h2,
    t_col0 x3 (idx_main_v133 (idx_main_v134 (idx_main_v136 j))) s h1 h2]
  exact max_comm _ _

/-- The enclosing box's height: the larger bottom edge less the smaller top edge, clipped at zero. -/
theorem hullH (x1 : (⟨S16x1000x4, .f32⟩ : BufTy).Contents (Elt Ideal)) (x3 : (⟨S16x128x4, .f32⟩ : BufTy).Contents (Elt Ideal)) (j : S16000x2048x2.Idx) (r : Fin 16000) (s : Fin 2048)
    (h0 : (j 0).val = r.val) (h1 : (j 1).val = s.val) (h2 : (j 2).val = 1) :
    val_main_v146 (F := Ideal) x1 x3 j
      = max (max (yHi (qb x1 r)) (yHi (tb x3 s)) - min (yLo (qb x1 r)) (yLo (tb x3 s))) c0 := by
  rewrite [val_main_v146_apply, val_main_call1_v1_apply, val_main_call1_v0_apply, val_main_cst_20_apply,
    val_main_v145_apply, val_main_v144_apply, val_main_v137_apply,
    val_main_v142_apply, val_main_v139_apply, val_main_v138_apply, val_main_v143_apply, val_main_v141_apply, val_main_v140_apply,
    val_main_v135_apply, val_main_v132_apply, val_main_v131_apply, val_main_v136_apply, val_main_v134_apply, val_main_v133_apply,
    q_col3 x1 (idx_main_v138 (idx_main_v139 (idx_main_v142 j))) r h0 (by show 2 + (j 2).val = 3; omega),
    t_col3 x3 (idx_main_v140 (idx_main_v141 (idx_main_v143 j))) s h1 (by show 2 + (j 2).val = 3; omega),
    q_col1 x1 (idx_main_v131 (idx_main_v132 (idx_main_v135 j))) r h0 h2,
    t_col1 x3 (idx_main_v133 (idx_main_v134 (idx_main_v136 j))) s h1 h2]
  exact max_comm _ _

/-! ## Intersection, union, enclosing box and the GIoU at one (row, column) pair -/

/-- The intersection at (r, s): width times height, each read through a unit slice of the last axis and the reshape
    that drops it (the flat position `2048 r + s` splits back into `r` and `s`). -/
theorem inter_apply (x1 : (⟨S16x1000x4, .f32⟩ : BufTy).Contents (Elt Ideal)) (x3 : (⟨S16x128x4, .f32⟩ : BufTy).Contents (Elt Ideal)) (r : Fin 16000) (s : Fin 2048) :
    val_main_v123 (F := Ideal) x1 x3 (ix2 r s) = interOf (qb x1 r) (tb x3 s) := by
  have hr := r.isLt
  have hs := s.isLt
  have e0 : (r.val * 2048 + s.val) / 2048 = r.val := by omega
  have e1 : (r.val * 2048 + s.val) / 1 % 2048 = s.val := by omega
  rewrite [val_main_v123_apply, val_main_v120_apply, val_main_v122_apply, val_main_v119_apply, val_main_v121_apply,
    interW x1 x3 (idx_main_v119 (idx_main_v120 (ix2 r s))) r s e0 e1 rfl,
    interH x1 x3 (idx_main_v121 (idx_main_v122 (ix2 r s))) r s e0 e1 rfl]
  rfl

/-- The union at (r, s): the row's area plus the column's area, each broadcast over the other axis, less the
    intersection. -/
theorem union_apply (x1 : (⟨S16x1000x4, .f32⟩ : BufTy).Contents (Elt Ideal)) (x3 : (⟨S16x128x4, .f32⟩ : BufTy).Contents (Elt Ideal)) (r : Fin 16000) (s : Fin 2048) :
    val_main_v129 (F := Ideal) x1 x3 (ix2 r s) = unionOf (qb x1 r) (tb x3 s) := by
  rewrite [val_main_v129_apply, val_main_v128_apply, val_main_v126_apply, val_main_v127_apply, val_main_v124_apply,
    val_main_v125_apply, q_area x1 (idx_main_v124 (idx_main_v126 (ix2 r s))) r rfl,
    t_area x3 (idx_main_v125 (idx_main_v127 (ix2 r s))) s rfl, inter_apply]
  rfl

/-- The enclosing box's area at (r, s). -/
theorem hull_apply (x1 : (⟨S16x1000x4, .f32⟩ : BufTy).Contents (Elt Ideal)) (x3 : (⟨S16x128x4, .f32⟩ : BufTy).Contents (Elt Ideal)) (r : Fin 16000) (s : Fin 2048) :
    val_main_v151 (F := Ideal) x1 x3 (ix2 r s) = hullOf (qb x1 r) (tb x3 s) := by
  have hr := r.isLt
  have hs := s.isLt
  have e0 : (r.val * 2048 + s.val) / 2048 = r.val := by omega
  have e1 : (r.val * 2048 + s.val) / 1 % 2048 = s.val := by omega
  rewrite [val_main_v151_apply, val_main_v148_apply, val_main_v150_apply, val_main_v147_apply, val_main_v149_apply,
    hullW x1 x3 (idx_main_v147 (idx_main_v148 (ix2 r s))) r s e0 e1 rfl,
    hullH x1 x3 (idx_main_v149 (idx_main_v150 (ix2 r s))) r s e0 e1 rfl]
  rfl

/-- Entry (r, s) of the reference's GIoU: that of row r's box and column s's box. -/
theorem giou_apply (x1 : (⟨S16x1000x4, .f32⟩ : BufTy).Contents (Elt Ideal)) (x3 : (⟨S16x128x4, .f32⟩ : BufTy).Contents (Elt Ideal))
    (r : Fin 16000) (s : Fin 2048) :
    val_main_v154 (F := Ideal) x1 x3 (ix2 r s)
      = giou (fun k => x1 (ix3 (rowImg r) (rowQry r) k)) (fun k => x3 (ix3 (colImg s) (colTgt s) k)) := by
  rewrite [val_main_v154_apply, val_main_v130_apply, val_main_v153_apply, val_main_v152_apply, union_apply, inter_apply,
    hull_apply]
  exact (giou_eq (qb x1 r) (tb x3 s)).symm

end Cert.ReferenceIdeal.CostRead

end
-- ==== Proof.LibGatherDiag.lean ====
/-
  One host indexing operation read at an index, for any extents: the gather that keeps the DIAGONAL of two axes of
  a rank-4 array (what taking the diagonal over a pair of axes lowers to, after the two axes have been moved last).
  The operand is [Q × T × M × N], the start indices an [E × 2] array of (third-axis, fourth-axis) positions, the
  result [Q × T × E]: entry (q, t, e) is the operand at (q, t, m, n) with m and n the two components of start index
  e, each read as a signed integer and clamped into its axis.
-/
import Idealize.ShloMosaic.PureOps.Ideal
import Idealize.ShloMosaic.PureOps.Contract
import Idealize.ShloMosaic.Lib.ValueIdx

noncomputable section

namespace Idealize.ShloMosaic.DiagOps

open Idealize.ShloMosaic Idealize.ShloMosaic.ValueIdx

/-- The entries of a list known to be a pair, at positions 0 and 1. -/
theorem getElem_pair {β : Type} {L : List β} {u v : β} (hL : L = [u, v]) (k : Nat) (h : k < L.length) :
    (k = 0 → L[k] = u) ∧ (k = 1 → L[k] = v) := by
  subst hL
  exact ⟨fun hk => by subst hk; rfl, fun hk => by subst hk; rfl⟩

/-- The diagonal gather read at an index. The operand is a [Q × T × M × N] array, the start indices an [E × 2] array
    of (third-axis, fourth-axis) positions, the result [Q × T × E]: the first two operand axes are kept whole (offset
    axes 0 and 1 of the result), the last two are collapsed and named by the start index. Entry (q, t, e) of the result
    is the operand at (q, t, m, n) with m and n the two components of start index e, each read signed and clamped into
    its axis. -/
theorem gather_diag_apply {α : Type} {Q T M N E w : Nat}
    (d : GatherDims ⟨4, ![Q, T, M, N]⟩ ⟨2, ![E, 2]⟩ ⟨3, ![Q, T, E]⟩)
    (hoff : d.offsetDims = [0, 1]) (hcoll : d.collapsedSliceDims = [2, 3]) (hob : d.operandBatchingDims = [])
    (hsim : d.startIndexMap = [2, 3]) (hivd : d.indexVectorDim = 1)
    (x : (⟨4, ![Q, T, M, N]⟩ : Shape).Idx → α) (idx : IVec ⟨2, ![E, 2]⟩ w) (q : Fin Q) (t : Fin T) (e : Fin E)
    (hM : 0 < M) (hN : 0 < N) :
    Host.gather d x idx (ix3 q t e)
      = x (ix4 q t (⟨min (idx (ix2 e (0 : Fin 2))).toInt.toNat (M - 1), by omega⟩ : Fin M)
            (⟨min (idx (ix2 e (1 : Fin 2))).toInt.toNat (N - 1), by omega⟩ : Fin N)) := by
  unfold Host.gather
  congr 1
  funext a
  -- the result's one batch axis is axis 2; no operand axis is a batching axis; the kept operand axes are 0 and 1
  have hbd : d.batchDims = [2] := by
    show (⟨3, ![Q, T, E]⟩ : Shape).kept d.offsetDims = [2]
    rw [hoff]; rfl
  have hsk : d.sKept = [0, 1] := by
    show (⟨4, ![Q, T, M, N]⟩ : Shape).kept (d.collapsedSliceDims ++ d.operandBatchingDims) = [0, 1]
    rw [hcoll, hob]; rfl
  have hob0 : ∀ a : Fin 4, a ∉ d.operandBatchingDims := fun a => by rw [hob]; exact List.not_mem_nil
  have hall2 : ∀ X ∈ d.batchDims, X = 2 := fun X hX => by rw [hbd] at hX; exact List.mem_singleton.1 hX
  have coord0 : ∀ X : Fin 3, X = 0 → ((ix3 q t e) X).val = q.val := fun X h => by subst h; rfl
  have coord1 : ∀ X : Fin 3, X = 1 → ((ix3 q t e) X).val = t.val := fun X h => by subst h; rfl
  have coord2 : ∀ X : Fin 3, X = 2 → ((ix3 q t e) X).val = e.val := fun X h => by subst h; rfl
  -- the start-indices index at which component c of start index e is read: (e, c)
  have hsi : ∀ (c : Fin d.startIndexMap.length) (c' : Fin 2), c.val = c'.val →
      d.siIdx (ix3 q t e) c = ix2 e c' := by
    intro c c' hc
    funext b
    match b with
    | ⟨0, _⟩ =>
      unfold GatherDims.siIdx
      rw [dif_neg (by rw [hivd]; simp)]
      unfold GatherDims.siCoord
      apply Fin.ext
      simp only [Fin.val_cast]
      exact coord2 _ (hall2 _ (List.getElem_mem _))
    | ⟨1, _⟩ =>
      unfold GatherDims.siIdx
      rw [dif_pos (by rw [hivd])]
      apply Fin.ext
      exact hc
  match a with
  | ⟨0, _⟩ =>
    -- operand axis 0: not start-indexed, kept whole: the result's coordinate on its offset axis 0
    apply Fin.ext
    have hk : (0 : Fin 4) ∈ d.sKept := by rw [hsk]; simp
    have hm : (0 : Fin 4) ∉ d.startIndexMap := by rw [hsim]; simp
    have hpos : d.sKept.idxOf (0 : Fin 4) = 0 := by rw [hsk]; rfl
    show d.start (ix3 q t e) idx 0 + d.batchCoord (ix3 q t e) 0 + d.offCoord (ix3 q t e) 0 = q.val
    rw [GatherDims.batchCoord_eq_zero _ _ _ (hob0 0)]
    unfold GatherDims.start GatherDims.offCoord
    rw [dif_neg hm, dif_pos hk]
    simp only [Nat.add_zero, Nat.zero_add]
    exact coord0 _ ((getElem_pair hoff _ _).1 hpos)
  | ⟨1, _⟩ =>
    -- operand axis 1: not start-indexed, kept whole: the result's coordinate on its offset axis 1
    apply Fin.ext
    have hk : (1 : Fin 4) ∈ d.sKept := by rw [hsk]; simp
    have hm : (1 : Fin 4) ∉ d.startIndexMap := by rw [hsim]; simp
    have hpos : d.sKept.idxOf (1 : Fin 4) = 1 := by rw [hsk]; rfl
    show d.start (ix3 q t e) idx 1 + d.batchCoord (ix3 q t e) 1 + d.offCoord (ix3 q t e) 1 = t.val
    rw [GatherDims.batchCoord_eq_zero _ _ _ (hob0 1)]
    unfold GatherDims.start GatherDims.offCoord
    rw [dif_neg hm, dif_pos hk]
    simp only [Nat.add_zero, Nat.zero_add]
    exact coord1 _ ((getElem_pair hoff _ _).2 hpos)
  | ⟨2, _⟩ =>
    -- operand axis 2: collapsed (slice size 1) and start-indexed, component 0 of the start index, clamped
    apply Fin.ext
    have hk : (2 : Fin 4) ∉ d.sKept := by rw [hsk]; simp
    have hm : (2 : Fin 4) ∈ d.startIndexMap := by rw [hsim]; simp
    have hsl : d.sliceSizes 2 = 1 := d.slice_collapsed 2 (by rw [hcoll]; simp)
    have hpos : d.startIndexMap.idxOf (2 : Fin 4) = 0 := by rw [hsim]; rfl
    show d.start (ix3 q t e) idx 2 + d.batchCoord (ix3 q t e) 2 + d.offCoord (ix3 q t e) 2
      = min (idx (ix2 e (0 : Fin 2))).toInt.toNat (M - 1)
    rw [GatherDims.batchCoord_eq_zero _ _ _ (hob0 2), GatherDims.offCoord_eq_zero _ _ _ hk]
    simp only [Nat.add_zero]
    unfold GatherDims.start
    rw [dif_pos hm, hsi _ (0 : Fin 2) hpos]
    show min (idx _).toInt.toNat (M - d.sliceSizes 2) = _
    rw [hsl]
  | ⟨3, _⟩ =>
    -- operand axis 3: collapsed (slice size 1) and start-indexed, component 1 of the start index, clamped
    apply Fin.ext
    have hk : (3 : Fin 4) ∉ d.sKept := by rw [hsk]; simp
    have hm : (3 : Fin 4) ∈ d.startIndexMap := by rw [hsim]; simp
    have hsl : d.sliceSizes 3 = 1 := d.slice_collapsed 3 (by rw [hcoll]; simp)
    have hpos : d.startIndexMap.idxOf (3 : Fin 4) = 1 := by rw [hsim]; rfl
    show d.start (ix3 q t e) idx 3 + d.batchCoord (ix3 q t e) 3 + d.offCoord (ix3 q t e) 3
      = min (idx (ix2 e (1 : Fin 2))).toInt.toNat (N - 1)
    rw [GatherDims.batchCoord_eq_zero _ _ _ (hob0 3), GatherDims.offCoord_eq_zero _ _ _ hk]
    simp only [Nat.add_zero]
    unfold GatherDims.start
    rw [dif_pos hm, hsi _ (1 : Fin 2) hpos]
    show min (idx _).toInt.toNat (N - d.sliceSizes 3) = _
    rw [hsl]

end Idealize.ShloMosaic.DiagOps

end
-- ==== Proof.RefTail.lean ====
/- The reference's last steps: the all-pairs matrix cut into image blocks and the diagonal blocks kept. -/
import proofs.«413233_j54786602827871_3_alg».proof.Proof.Gen.ReferenceIdeal.Read
import proofs.«413233_j54786602827871_3_alg».proof.Proof.Spec
import proofs.«413233_j54786602827871_3_alg».proof.Proof.LibGatherDiag

noncomputable section

namespace Cert.ReferenceIdeal.CostRead

open Cert.ReferenceIdeal Cert.ReferenceIdeal.Read Cert.Cost Idealize.ShloMosaic Idealize.ShloMosaic.ValueIdx
open Idealize.ShloMosaic.DiagOps

/-! ## The index array of the diagonal: row i is (i, i) -/

/-- Array indexing's treatment of a negative index leaves a position below 16 alone: its word is not below zero. -/
theorem wrap16 (i : Fin 16) :
    Scalar.select (IntOp.cmpi .slt (BitVec.ofNat 32 i.val) 0#32) (IntOp.addi (BitVec.ofNat 32 i.val) 16#32)
      (BitVec.ofNat 32 i.val) = BitVec.ofNat 32 i.val := by
  revert i; decide

/-- The word of a position below 16, read signed and clamped into [0, 15], is the position. -/
theorem clamp16 (i : Fin 16) : min (BitVec.ofNat 32 i.val).toInt.toNat (16 - 1) = i.val := by
  revert i; decide

/-- Column 0 of the index array: position i, passed through the negative-index wrap. -/
theorem diagIdx_left (i : Fin 16) :
    val_main_call2_v15 (F := Ideal) (ix2 i (0 : Fin 2)) = BitVec.ofNat 32 i.val := by
  unfold val_main_call2_v15
  refine (concatenate_pair_apply_left (t := S16x2) (s₁ := S16x1) (s₂ := S16x1) 1 _ _ _
    (ix2 i (0 : Fin 2)) rfl (ix2 i (0 : Fin 1)) (fun b => match b with
      | ⟨0, _⟩ => rfl
      | ⟨1, _⟩ => rfl)).trans ?_
  rw [val_main_call2_v13_apply, val_main_call2_v7_apply, val_main_call2_v4_apply, val_main_call2_v6_apply,
    val_main_call2_v1_apply, val_main_call2_v3_apply, val_main_call2_v5_apply, val_main_call2_c_apply,
    val_main_call2_c_0_apply]
  exact wrap16 i

/-- Column 1 of the index array: position i again. -/
theorem diagIdx_right (i : Fin 16) :
    val_main_call2_v15 (F := Ideal) (ix2 i (1 : Fin 2)) = BitVec.ofNat 32 i.val := by
  unfold val_main_call2_v15
  refine (concatenate_pair_apply_right (t := S16x2) (s₁ := S16x1) (s₂ := S16x1) 1 _ _ _
    (ix2 i (1 : Fin 2)) rfl rfl (ix2 i (0 : Fin 1)) (fun b => match b with
      | ⟨0, _⟩ => fun _ => rfl
      | ⟨1, _⟩ => fun h => absurd rfl h) rfl).trans ?_
  rw [val_main_call2_v14_apply, val_main_call2_v12_apply, val_main_call2_v9_apply, val_main_call2_v11_apply,
    val_main_call2_v2_apply, val_main_call2_v8_apply, val_main_call2_v10_apply, val_main_call2_c_1_apply,
    val_main_call2_c_2_apply]
  exact wrap16 i

/-! ## The diagonal blocks -/

/-- Entry (q, t, b) of the gathered array is entry (q, t, b, b) of the transposed blocks. -/
theorem v165_apply (x0 : (⟨S16x1000x91, .f32⟩ : BufTy).Contents (Elt Ideal)) (x1 : (⟨S16x1000x4, .f32⟩ : BufTy).Contents (Elt Ideal))
    (x2 : (⟨S16x128, .i32⟩ : BufTy).Contents (Elt Ideal)) (x3 : (⟨S16x128x4, .f32⟩ : BufTy).Contents (Elt Ideal))
    (q : Fin 1000) (t : Fin 128) (b : Fin 16) :
    val_main_v165 (F := Ideal) x0 x1 x2 x3 (ix3 q t b) = val_main_call2_v0 (F := Ideal) x0 x1 x2 x3 (ix4 q t b b) := by
  unfold val_main_v165
  refine (gather_diag_apply gather_S1000x128x16x16_S16x2_S1000x128x16_01_23_n_n_23_1_100012811 rfl rfl rfl rfl rfl
    _ _ q t b (by decide) (by decide)).trans ?_
  congr 1
  funext a
  match a with
  | ⟨0, _⟩ => rfl
  | ⟨1, _⟩ => rfl
  | ⟨2, _⟩ =>
    apply Fin.ext
    show min (val_main_call2_v15 (F := Ideal) (ix2 b (0 : Fin 2))).toInt.toNat (16 - 1) = b.val
    rw [diagIdx_left]
    exact clamp16 b
  | ⟨3, _⟩ =>
    apply Fin.ext
    show min (val_main_call2_v15 (F := Ideal) (ix2 b (1 : Fin 2))).toInt.toNat (16 - 1) = b.val
    rw [diagIdx_right]
    exact clamp16 b

/-- Entry (b, q, t) of the result is the all-pairs matrix at row b · 1000 + q and column b · 128 + t: the last
    transpose puts the image first again, the gather kept the blocks with equal image on both sides, and the
    reshape's flat position ((b · 1000 + q) · 16 + b) · 128 + t splits by 2048 into that row and that column. -/
theorem v166_apply_flat (x0 : (⟨S16x1000x91, .f32⟩ : BufTy).Contents (Elt Ideal)) (x1 : (⟨S16x1000x4, .f32⟩ : BufTy).Contents (Elt Ideal))
    (x2 : (⟨S16x128, .i32⟩ : BufTy).Contents (Elt Ideal)) (x3 : (⟨S16x128x4, .f32⟩ : BufTy).Contents (Elt Ideal))
    (b : Fin 16) (q : Fin 1000) (t : Fin 128) :
    val_main_v166 (F := Ideal) x0 x1 x2 x3 (ix3 b q t)
      = val_main_v163 (F := Ideal) x0 x1 x2 x3
          (ix2 (⟨b.val * 1000 + q.val, by omega⟩ : Fin 16000) (⟨b.val * 128 + t.val, by omega⟩ : Fin 2048)) := by
  have e166 : idx_main_v166 (ix3 b q t) = ix3 q t b := by
    funext a
    match a with
    | ⟨0, _⟩ => rfl
    | ⟨1, _⟩ => rfl
    | ⟨2, _⟩ => rfl
  rw [val_main_v166_apply, e166, v165_apply, val_main_call2_v0_apply, val_main_v164_apply]
  congr 1
  funext a
  have hb := b.isLt
  have hq := q.isLt
  have ht := t.isLt
  match a with
  | ⟨0, _⟩ =>
    apply Fin.ext
    show (((b.val * 1000 + q.val) * 16 + b.val) * 128 + t.val) / 2048 = b.val * 1000 + q.val
    omega
  | ⟨1, _⟩ =>
    apply Fin.ext
    show (((b.val * 1000 + q.val) * 16 + b.val) * 128 + t.val) % 2048 = b.val * 128 + t.val
    omega

/-- Entry (b, q, t) of the reference's result is entry (row of (b, q), column of (b, t)) of the all-pairs matrix. -/
theorem result_apply (x0 : (⟨S16x1000x91, .f32⟩ : BufTy).Contents (Elt Ideal)) (x1 : (⟨S16x1000x4, .f32⟩ : BufTy).Contents (Elt Ideal))
    (x2 : (⟨S16x128, .i32⟩ : BufTy).Contents (Elt Ideal)) (x3 : (⟨S16x128x4, .f32⟩ : BufTy).Contents (Elt Ideal))
    (b : Fin 16) (q : Fin 1000) (t : Fin 128) :
    val_main_v166 (F := Ideal) x0 x1 x2 x3 (ix3 b q t) = val_main_v163 (F := Ideal) x0 x1 x2 x3 (ix2 (row b q) (col b t)) := by
  exact v166_apply_flat x0 x1 x2 x3 b q t

end Cert.ReferenceIdeal.CostRead

end
-- ==== Proof.RefValue.lean ====
/- The reference's result array is the reference's spelling of the cost array. -/
import proofs.«413233_j54786602827871_3_alg».proof.Proof.RefClass
import proofs.«413233_j54786602827871_3_alg».proof.Proof.RefL1
import proofs.«413233_j54786602827871_3_alg».proof.Proof.RefGiou
import proofs.«413233_j54786602827871_3_alg».proof.Proof.RefTail

noncomputable section

namespace Cert.ReferenceIdeal.CostRead

open Cert.ReferenceIdeal Cert.ReferenceIdeal.Read Cert.Cost Idealize.ShloMosaic Idealize.ShloMosaic.ValueIdx

/-- The reference's result, as one function of the argument arrays. -/
theorem val_eq_GRef (x0 : (⟨S16x1000x91, .f32⟩ : BufTy).Contents (Elt Ideal)) (x1 : (⟨S16x1000x4, .f32⟩ : BufTy).Contents (Elt Ideal))
    (x2 : (⟨S16x128, .i32⟩ : BufTy).Contents (Elt Ideal)) (x3 : (⟨S16x128x4, .f32⟩ : BufTy).Contents (Elt Ideal)) :
    val_main_v166 (F := Ideal) x0 x1 x2 x3 = GRef x0 x1 x2 x3 := by
  funext i
  obtain ⟨b, q, t, rfl⟩ : ∃ (b : Fin 16) (q : Fin 1000) (t : Fin 128), i = ix3 b q t := ⟨i 0, i 1, i 2, eq_ix3 i⟩
  -- the result at (b, q, t) is the all-pairs matrix at the row of (b, q) and the column of (b, t) …
  rw [result_apply, GRef_apply]
  -- … which is 5 · (L1 term) + 2 · (class term) + 2 · (−(GIoU term)), the weights broadcast constants
  rw [val_main_v163_apply, val_main_v160_apply, val_main_v162_apply, val_main_v157_apply, val_main_v159_apply,
    val_main_v155_apply, val_main_v156_apply, val_main_v158_apply, val_main_v161_apply, val_main_cst_21_apply,
    val_main_cst_22_apply, val_main_cst_23_apply]
  -- the three terms at that row and column, whose image is b on both sides, whose query is q and whose target is t
  rw [class_apply, l1_apply, giou_apply, rowImg_row, rowQry_row, colImg_col, colTgt_col]
  rfl

end Cert.ReferenceIdeal.CostRead

end
-- ==== Proof.lean ====
/- The matching-cost kernel against its reference, over the extended reals.

   Both programs compute, for every image b, query q and target t,
       5 · L1(box_q, box_t) + focal(p) − 2 · GIoU(box_q, box_t),
   with p the sigmoid of the query's logit in the target's class. The kernel works image by image (two
   images per grid point), selects the class probability by a product with a one-hot matrix built from
   the labels clipped into the 91 classes, and folds the class weight 2 into the focal weights. The
   reference forms the cost of every query against every target of every image, selects the class
   probability by array indexing (which adds 91 to a negative label before clamping), and keeps the
   diagonal image blocks.

   The two agree where every logit is a real number — so that the probability is one, squares written as
   powers are products, and the factor 2 distributes — and every label is non-negative — so that the
   reference's indexing does not wrap it; both are what the precondition says (Proof/PreFacts.lean).
   Proof/Spec.lean states the cost array once in each spelling and proves the two equal under those two
   facts; Proof/KernelRun.lean shows the kernel's run ends with the first, Proof/RefValue.lean that the
   reference's result is the second. The three frames are the generated ones (the reference's is its
   generated run with the result dropped), and the idealization rewrote nothing, so `preserves` is trivial. -/
import proofs.«413233_j54786602827871_3_alg».proof.Defs
import proofs.«413233_j54786602827871_3_alg».proof.Proof.Gen.Kernel
import proofs.«413233_j54786602827871_3_alg».proof.Proof.Gen.Kernel.Frame
import proofs.«413233_j54786602827871_3_alg».proof.Proof.Gen.KernelIdeal
import proofs.«413233_j54786602827871_3_alg».proof.Proof.Gen.KernelIdeal.Frame
import proofs.«413233_j54786602827871_3_alg».proof.Proof.Gen.KernelIdeal.Value
import proofs.«413233_j54786602827871_3_alg».proof.Proof.Gen.ReferenceIdeal
import proofs.«413233_j54786602827871_3_alg».proof.Proof.Gen.ReferenceIdeal.Run
import proofs.«413233_j54786602827871_3_alg».proof.Proof.Gen.ReferenceIdeal.Read
import proofs.«413233_j54786602827871_3_alg».proof.Proof.Gen.Pre_finite_inputs
import proofs.«413233_j54786602827871_3_alg».proof.Proof.Spec
import proofs.«413233_j54786602827871_3_alg».proof.Proof.PreFacts
import proofs.«413233_j54786602827871_3_alg».proof.Proof.KernelRun
import proofs.«413233_j54786602827871_3_alg».proof.Proof.RefValue
import Idealize.ShloMosaic.Adequacy
import Idealize.ShloMosaic.Init

noncomputable section

namespace Cert.Proof

open Idealize.ShloMosaic Idealize.SL.Sem

/-- From memories agreeing on the arguments both idealized programs run, the kernel to the kernel's spelling of the
    cost array and the reference to the reference's spelling, which is the same array because the precondition makes
    every logit real and every label non-negative. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.KernelIdeal.CostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v166_eq, Cert.ReferenceIdeal.CostRead.val_eq_GRef,
    (hagree c).1, (hagree c).2.1, (hagree c).2.2.1, (hagree c).2.2.2]
  obtain ⟨hx, hlab⟩ := @Cert.Cost.PreFacts.of_pre Cert.Pre_finite_inputs.Gen.facts _ _ _ _ (hpre c)
  exact Cert.Cost.GRef_eq_G _ _ _ _ hx hlab

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
